-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S_ : Shape := ⟨0, ![]⟩

class Facts : Prop where
  bcast_S_S16x64x4096 : S_.BroadcastsInDim S16x64x4096 (![] : Fin 0 → Fin S16x64x4096.rank)
  reducesTo_S16x64x4096_S_d0_1_2 : S16x64x4096.ReducesTo [0, 1, 2] S_
  h_S_ : 0 < S_.numel
  bcast_S_S65536x20x20 : S_.BroadcastsInDim S65536x20x20 (![] : Fin 0 → Fin S65536x20x20.rank)
  reducesTo_S65536x20x20_S_d0_1_2 : S65536x20x20.ReducesTo [0, 1, 2] S_
  bcast_S_S64x1280 : S_.BroadcastsInDim S64x1280 (![] : Fin 0 → Fin S64x1280.rank)
  reducesTo_S64x1280_S_d0_1 : S64x1280.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x64x4096 .f32) (main_arg1 : FVec F S65536x20x20 .f32) (main_arg2 : FVec F S64x1280 .f32) (main_arg3 : FVec F S64 .f32) (main_arg4 : FVec F S64 .f32) (main_arg5 : FVec F S64 .f32) (main_arg6 : IVec S65536x20 32) : IVec S_ 1 :=
  let main_v0 : FVec F S16x64x4096 .f32 := Host.absf main_arg0
  let main_cst : FVec F S_ .f32 := constant S_ .f32 0x7F800000#32
  let main_v1 : FVec F S16x64x4096 .f32 := broadcastInDim S16x64x4096 ![] bcast_S_S16x64x4096 main_cst
  let main_v2 : IVec S16x64x4096 1 := cmpf .olt main_v0 main_v1
  let main_c : IVec S_ 1 := constantI S_ 1 1#1
  let main_v3 : IVec S_ 1 := (fun x v => Host.reduce IntOp.andi x v reducesTo_S16x64x4096_S_d0_1_2 h_S_) main_v2 main_c
  let main_v4 : FVec F S65536x20x20 .f32 := Host.absf main_arg1
  let main_cst_0 : FVec F S_ .f32 := constant S_ .f32 0x7F800000#32
  let main_v5 : FVec F S65536x20x20 .f32 := broadcastInDim S65536x20x20 ![] bcast_S_S65536x20x20 main_cst_0
  let main_v6 : IVec S65536x20x20 1 := cmpf .olt main_v4 main_v5
  let main_c_1 : IVec S_ 1 := constantI S_ 1 1#1
  let main_v7 : IVec S_ 1 := (fun x v => Host.reduce IntOp.andi x v reducesTo_S65536x20x20_S_d0_1_2 h_S_) main_v6 main_c_1
  let main_v8 : IVec S_ 1 := andi main_v3 main_v7
  let main_v9 : FVec F S64x1280 .f32 := Host.absf main_arg2
  let main_cst_2 : FVec F S_ .f32 := constant S_ .f32 0x7F800000#32
  let main_v10 : FVec F S64x1280 .f32 := broadcastInDim S64x1280 ![] bcast_S_S64x1280 main_cst_2
  let main_v11 : IVec S64x1280 1 := cmpf .olt main_v9 main_v10
  let main_c_3 : IVec S_ 1 := constantI S_ 1 1#1
  let main_v12 : IVec S_ 1 := (fun x v => Host.reduce IntOp.andi x v reducesTo_S64x1280_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S16x4096x64 : Shape := ⟨3, ![16, 4096, 64]⟩
abbrev S65536x64 : Shape := ⟨2, ![65536, 64]⟩
abbrev S65536x4x16 : Shape := ⟨3, ![65536, 4, 16]⟩
abbrev S65536x16x4 : Shape := ⟨3, ![65536, 16, 4]⟩
abbrev S_ : Shape := ⟨0, ![]⟩
abbrev S65536x20x1 : Shape := ⟨3, ![65536, 20, 1]⟩
abbrev S65536x20x64 : Shape := ⟨3, ![65536, 20, 64]⟩
abbrev S1280x64 : Shape := ⟨2, ![1280, 64]⟩
abbrev S1x64 : Shape := ⟨2, ![1, 64]⟩
abbrev S1024x20x64 : Shape := ⟨3, ![1024, 20, 64]⟩
abbrev S1024x20x20 : Shape := ⟨3, ![1024, 20, 20]⟩
abbrev S1024x64 : Shape := ⟨2, ![1024, 64]⟩
abbrev S1024x64x20 : Shape := ⟨3, ![1024, 64, 20]⟩
abbrev S1024x1280 : Shape := ⟨2, ![1024, 1280]⟩
abbrev S1x64x1 : Shape := ⟨3, ![1, 64, 1]⟩

abbrev nBuf : Space → Nat
  | .hbm => 71
  | .vmem => 8
  | .smem => 0
  | _ => 0

abbrev bufTy : (tb : Table) → Fin (tcTables nBuf tb) → BufTy
  | .hbm, ⟨0, _⟩ => ⟨S16x64x4096, .f32⟩
  | .hbm, ⟨1, _⟩ => ⟨S65536x20x20, .f32⟩
  | .hbm, ⟨2, _⟩ => ⟨S64x1280, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S65536x20, .i32⟩
  | .hbm, ⟨7, _⟩ => ⟨S16x4096x64, .f32⟩
  | .hbm, ⟨8, _⟩ => ⟨S65536x64, .f32⟩
  | .hbm, ⟨9, _⟩ => ⟨S65536x4x16, .f32⟩
  | .hbm, ⟨10, _⟩ => ⟨S65536x16x4, .f32⟩
  | .hbm, ⟨11, _⟩ => ⟨S65536x64, .f32⟩
  | .hbm, ⟨12, _⟩ => ⟨S65536x64, .bf16⟩
  | .hbm, ⟨13, _⟩ => ⟨S_, .i32⟩
  | .hbm, ⟨14, _⟩ => ⟨S65536x20, .i32⟩
  | .hbm, ⟨15, _⟩ => ⟨S65536x20, .i1⟩
  | .hbm, ⟨16, _⟩ => ⟨S_, .i32⟩
  | .hbm, ⟨17, _⟩ => ⟨S65536x20, .i32⟩
  | .hbm, ⟨18, _⟩ => ⟨S65536x20, .i32⟩
  | .hbm, ⟨19, _⟩ => ⟨S65536x20, .i32⟩
  | .hbm, ⟨20, _⟩ => ⟨S65536x20x1, .i32⟩
  | .hbm, ⟨21, _⟩ => ⟨S65536x20x64, .bf16⟩
  | .hbm, ⟨22, _⟩ => ⟨S1280x64, .f32⟩
  | .hbm, ⟨23, _⟩ => ⟨S1x64, .f32⟩
  | .hbm, ⟨24, _⟩ => ⟨S65536x64, .f32⟩
  | .hbm, ⟨25, _⟩ => ⟨S16x4096x64, .f32⟩
  | .hbm, ⟨26, _⟩ => ⟨S16x64x4096, .f32⟩
  | .hbm, ⟨27, _⟩ => ⟨S_, .f32⟩
  | .hbm, ⟨28, _⟩ => ⟨S64, .f32⟩
  | .hbm, ⟨29, _⟩ => ⟨S1x64x1, .f32⟩
  | .hbm, ⟨30, _⟩ => ⟨S_, .f32⟩
  | .hbm, ⟨31, _⟩ => ⟨S1x64x1, .f32⟩
  | .hbm, ⟨32, _⟩ => ⟨S1x64x1, .f32⟩
  | .hbm, ⟨33, _⟩ => ⟨S_, .i32⟩
  | .hbm, ⟨34, _⟩ => ⟨S_, .f32⟩
  | .hbm, ⟨35, _⟩ => ⟨S64, .f32⟩
  | .hbm, ⟨36, _⟩ => ⟨S1x64x1, .f32⟩
  | .hbm, ⟨37, _⟩ => ⟨S_, .f32⟩
  | .hbm, ⟨38, _⟩ => ⟨S1x64x1, .f32⟩
  | .hbm, ⟨39, _⟩ => ⟨S1x64x1, .f32⟩
  | .hbm, ⟨40, _⟩ => ⟨S16x64x4096, .f32⟩
  | .hbm, ⟨41, _⟩ => ⟨S16x64x4096, .f32⟩
  | .hbm, ⟨42, _⟩ => ⟨S16x64x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S1x64x1, .f32⟩
  | .hbm, ⟨49, _⟩ => ⟨S1x64x1, .f32⟩
  | .hbm, ⟨50, _⟩ => ⟨S1x64x1, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S1x64x1, .f32⟩
  | .hbm, ⟨56, _⟩ => ⟨S1x64x1, .f32⟩
  | .hbm, ⟨57, _⟩ => ⟨S16x64x4096, .f32⟩
  | .hbm, ⟨58, _⟩ => ⟨S16x64x4096, .f32⟩
  | .hbm, ⟨59, _⟩ => ⟨S_, .f32⟩
  | .hbm, ⟨60, _⟩ => ⟨S1x64x1, .f32⟩
  | .hbm, ⟨61, _⟩ => ⟨S1x64x1, .f32⟩
  | .hbm, ⟨62, _⟩ => ⟨S1x64x1, .f32⟩
  | .hbm, ⟨63, _⟩ => ⟨S16x64x4096, .f32⟩
  | .hbm, ⟨64, _⟩ => ⟨S16x64x4096, .f32⟩
  | .hbm, ⟨65, _⟩ => ⟨S1x64x1, .f32⟩
  | .hbm, ⟨66, _⟩ => ⟨S16x64x4096, .f32⟩
  | .hbm, ⟨67, _⟩ => ⟨S16x64x4096, .f32⟩
  | .hbm, ⟨68, _⟩ => ⟨S1x64x1, .f32⟩
  | .hbm, ⟨69, _⟩ => ⟨S16x64x4096, .f32⟩
  | .hbm, ⟨70, _⟩ => ⟨S16x64x4096, .f32⟩
  | .local _ .vmem, ⟨0, _⟩ => ⟨S1024x20x64, .bf16⟩
  | .local _ .vmem, ⟨1, _⟩ => ⟨S1024x20x64, .bf16⟩
  | .local _ .vmem, ⟨2, _⟩ => ⟨S1024x20x20, .f32⟩
  | .local _ .vmem, ⟨3, _⟩ => ⟨S1024x20x20, .f32⟩
  | .local _ .vmem, ⟨4, _⟩ => ⟨S1280x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x20x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x20x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x64x4096_S16x4096x64_0_2_1 : S16x64x4096.Transposes [0, 2, 1] S16x4096x64
  shapeCasts_S16x4096x64_S65536x64 : S16x4096x64.ShapeCasts S65536x64
  shapeCasts_S65536x64_S65536x4x16 : S65536x64.ShapeCasts S65536x4x16
  transposes_S65536x4x16_S65536x16x4_0_2_1 : S65536x4x16.Transposes [0, 2, 1] S65536x16x4
  shapeCasts_S65536x16x4_S65536x64 : S65536x16x4.ShapeCasts S65536x64
  bitsLt_bf16_f32 : FTy.bits .bf16 < FTy.bits .f32
  bcast_S_S65536x20 : S_.BroadcastsInDim S65536x20 (![] : Fin 0 → Fin S65536x20.rank)
  bcast_S65536x20_S65536x20x1_0_1 : S65536x20.BroadcastsInDim S65536x20x1 (![0, 1] : Fin 2 → Fin S65536x20x1.rank)
  transposes_S64x1280_S1280x64_1_0 : S64x1280.Transposes [1, 0] S1280x64
  shapeCasts_S64_S1x64 : S64.ShapeCasts S1x64
  inb_S1024x20x64_S1024x20x64_0_0_0 : ∀ a, (![0, 0, 0] : Fin 3 → Nat) a + S1024x20x64.size a ≤ S1024x20x64.size a
  h_S1024x20x64 : 0 < S1024x20x64.numel
  shapeCasts_S1024x20x64_S1024x20x64 : S1024x20x64.ShapeCasts S1024x20x64
  inb_S1024x20x20_S1024x20x20_0_0_0 : ∀ a, (![0, 0, 0] : Fin 3 → Nat) a + S1024x20x20.size a ≤ S1024x20x20.size a
  h_S1024x20x20 : 0 < S1024x20x20.numel
  shapeCasts_S1024x64x20_S1024x1280 : S1024x64x20.ShapeCasts S1024x1280
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S65536x64_S16x4096x64 : S65536x64.ShapeCasts S16x4096x64
  transposes_S16x4096x64_S16x64x4096_0_2_1 : S16x4096x64.Transposes [0, 2, 1] S16x64x4096
  reducesTo_S16x64x4096_S64_d0_2 : S16x64x4096.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x4096_0_1_2 : S1x64x1.BroadcastsInDim S16x64x4096 (![0, 1, 2] : Fin 3 → Fin S16x64x4096.rank)
  gather_S65536x64_S65536x20x1_S65536x20x64_2_0_n_n_0_2_164_wf : GatherDims.WF S65536x64 S65536x20x1 S65536x20x64 [2] [0] [] [0] [] 2 ![1, 64]
  dot_S1024x20x64_S1024x20x20_S1024x64x20_1_1_2_2_0_0_wf : DotDims.WF S1024x20x64 S1024x20x20 S1024x64x20 [1] [1] [2] [2] [0] [0]
  dot_S1024x1280_S1280x64_S1024x64_1_0_0_1_n_n_wf : DotDims.WF S1024x1280 S1280x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x20x64.size a ≤ S65536x20x64.size a
  hwx0_0 : ∀ i : grid0.Coords, EltTy.bits .bf16 = 32 ∨ (Rect.block (s := S65536x20x64) S1024x20x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x20x20.size a ≤ S65536x20x20.size a
  hwx0_1 : ∀ i : grid0.Coords, EltTy.bits .f32 = 32 ∨ (Rect.block (s := S65536x20x20) S1024x20x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x64.size a ≤ S1280x64.size a
  hwx0_2 : ∀ i : grid0.Coords, EltTy.bits .f32 = 32 ∨ (Rect.block (s := S1280x64) S1280x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)

variable [Facts₀]

def gather_S65536x64_S65536x20x1_S65536x20x64_2_0_n_n_0_2_164 : GatherDims S65536x64 S65536x20x1 S65536x20x64 where
  offsetDims := [2]
  collapsedSliceDims := [0]
  operandBatchingDims := []
  startIndicesBatchingDims := []
  startIndexMap := [0]
  indexVectorDim := 2
  sliceSizes := ![1, 64]
  wf := gather_S65536x64_S65536x20x1_S65536x20x64_2_0_n_n_0_2_164_wf
def dot_S1024x20x64_S1024x20x20_S1024x64x20_1_1_2_2_0_0 : DotDims S1024x20x64 S1024x20x20 S1024x64x20 where
  lhsContracting := [1]
  rhsContracting := [1]
  lhsNonContracting := [2]
  rhsNonContracting := [2]
  lhsBatch := [0]
  rhsBatch := [0]
  wf := dot_S1024x20x64_S1024x20x20_S1024x64x20_1_1_2_2_0_0_wf
def dot_S1024x1280_S1280x64_S1024x64_1_0_0_1_n_n : DotDims S1024x1280 S1280x64 S1024x64 where
  lhsContracting := [1]
  rhsContracting := [0]
  lhsNonContracting := [0]
  rhsNonContracting := [1]
  lhsBatch := []
  rhsBatch := []
  wf := dot_S1024x1280_S1280x64_S1024x64_1_0_0_1_n_n_wf

abbrev win0_0 : Pipeline.Window sig grid0 :=
  Pipeline.Window.ofSpec (Memref.whole main_v12) S1024x20x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x20x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1280x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x4096 : Shape := ⟨3, ![16, 64, 4096]⟩
abbrev S65536x20x20 : Shape := ⟨3, ![65536, 20, 20]⟩
abbrev S64x1280 : Shape := ⟨2, ![64, 1280]⟩
abbrev S64 : Shape := ⟨1, ![64]⟩
abbrev S65536x20 : Shape := ⟨2, ![65536, 20]⟩
abbrev S16x4096x64 : Shape := ⟨3, ![16, 4096, 64]⟩
abbrev S65536x64 : Shape := ⟨2, ![65536, 64]⟩
abbrev S_ : Shape := ⟨0, ![]⟩
abbrev S65536x20x1 : Shape := ⟨3, ![65536, 20, 1]⟩
abbrev S65536x20x64 : Shape := ⟨3, ![65536, 20, 64]⟩
abbrev S65536x64x20 : Shape := ⟨3, ![65536, 64, 20]⟩
abbrev S65536x4x16x20 : Shape := ⟨4, ![65536, 4, 16, 20]⟩
abbrev S65536x16x4x20 : Shape := ⟨4, ![65536, 16, 4, 20]⟩
abbrev S65536x1280 : Shape := ⟨2, ![65536, 1280]⟩
abbrev S1280x64 : Shape := ⟨2, ![1280, 64]⟩
abbrev S1x64 : Shape := ⟨2, ![1, 64]⟩
abbrev S1x64x1 : Shape := ⟨3, ![1, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S65536x20x20, .f32⟩
  | .hbm, ⟨2, _⟩ => ⟨S64x1280, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S65536x20, .i32⟩
  | .hbm, ⟨7, _⟩ => ⟨S16x4096x64, .f32⟩
  | .hbm, ⟨8, _⟩ => ⟨S65536x64, .f32⟩
  | .hbm, ⟨9, _⟩ => ⟨S_, .i32⟩
  | .hbm, ⟨10, _⟩ => ⟨S65536x20, .i32⟩
  | .hbm, ⟨11, _⟩ => ⟨S65536x20, .i1⟩
  | .hbm, ⟨12, _⟩ => ⟨S_, .i32⟩
  | .hbm, ⟨13, _⟩ => ⟨S65536x20, .i32⟩
  | .hbm, ⟨14, _⟩ => ⟨S65536x20, .i32⟩
  | .hbm, ⟨15, _⟩ => ⟨S65536x20, .i32⟩
  | .hbm, ⟨16, _⟩ => ⟨S65536x20x1, .i32⟩
  | .hbm, ⟨17, _⟩ => ⟨S65536x20x64, .f32⟩
  | .hbm, ⟨18, _⟩ => ⟨S65536x64x20, .f32⟩
  | .hbm, ⟨19, _⟩ => ⟨S65536x4x16x20, .f32⟩
  | .hbm, ⟨20, _⟩ => ⟨S65536x16x4x20, .f32⟩
  | .hbm, ⟨21, _⟩ => ⟨S65536x64x20, .f32⟩
  | .hbm, ⟨22, _⟩ => ⟨S65536x64x20, .f32⟩
  | .hbm, ⟨23, _⟩ => ⟨S65536x1280, .f32⟩
  | .hbm, ⟨24, _⟩ => ⟨S1280x64, .f32⟩
  | .hbm, ⟨25, _⟩ => ⟨S65536x64, .f32⟩
  | .hbm, ⟨26, _⟩ => ⟨S1x64, .f32⟩
  | .hbm, ⟨27, _⟩ => ⟨S65536x64, .f32⟩
  | .hbm, ⟨28, _⟩ => ⟨S65536x64, .f32⟩
  | .hbm, ⟨29, _⟩ => ⟨S16x4096x64, .f32⟩
  | .hbm, ⟨30, _⟩ => ⟨S16x64x4096, .f32⟩
  | .hbm, ⟨31, _⟩ => ⟨S_, .f32⟩
  | .hbm, ⟨32, _⟩ => ⟨S64, .f32⟩
  | .hbm, ⟨33, _⟩ => ⟨S1x64x1, .f32⟩
  | .hbm, ⟨34, _⟩ => ⟨S_, .f32⟩
  | .hbm, ⟨35, _⟩ => ⟨S1x64x1, .f32⟩
  | .hbm, ⟨36, _⟩ => ⟨S1x64x1, .f32⟩
  | .hbm, ⟨37, _⟩ => ⟨S_, .i32⟩
  | .hbm, ⟨38, _⟩ => ⟨S_, .f32⟩
  | .hbm, ⟨39, _⟩ => ⟨S64, .f32⟩
  | .hbm, ⟨40, _⟩ => ⟨S1x64x1, .f32⟩
  | .hbm, ⟨41, _⟩ => ⟨S_, .f32⟩
  | .hbm, ⟨42, _⟩ => ⟨S1x64x1, .f32⟩
  | .hbm, ⟨43, _⟩ => ⟨S1x64x1, .f32⟩
  | .hbm, ⟨44, _⟩ => ⟨S16x64x4096, .f32⟩
  | .hbm, ⟨45, _⟩ => ⟨S16x64x4096, .f32⟩
  | .hbm, ⟨46, _⟩ => ⟨S16x64x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64, .f32⟩
  | .hbm, ⟨52, _⟩ => ⟨S1x64x1, .f32⟩
  | .hbm, ⟨53, _⟩ => ⟨S1x64x1, .f32⟩
  | .hbm, ⟨54, _⟩ => ⟨S1x64x1, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S1x64x1, .f32⟩
  | .hbm, ⟨60, _⟩ => ⟨S1x64x1, .f32⟩
  | .hbm, ⟨61, _⟩ => ⟨S16x64x4096, .f32⟩
  | .hbm, ⟨62, _⟩ => ⟨S16x64x4096, .f32⟩
  | .hbm, ⟨63, _⟩ => ⟨S_, .f32⟩
  | .hbm, ⟨64, _⟩ => ⟨S1x64x1, .f32⟩
  | .hbm, ⟨65, _⟩ => ⟨S1x64x1, .f32⟩
  | .hbm, ⟨66, _⟩ => ⟨S1x64x1, .f32⟩
  | .hbm, ⟨67, _⟩ => ⟨S16x64x4096, .f32⟩
  | .hbm, ⟨68, _⟩ => ⟨S16x64x4096, .f32⟩
  | .hbm, ⟨69, _⟩ => ⟨S1x64x1, .f32⟩
  | .hbm, ⟨70, _⟩ => ⟨S16x64x4096, .f32⟩
  | .hbm, ⟨71, _⟩ => ⟨S16x64x4096, .f32⟩
  | .hbm, ⟨72, _⟩ => ⟨S1x64x1, .f32⟩
  | .hbm, ⟨73, _⟩ => ⟨S16x64x4096, .f32⟩
  | .hbm, ⟨74, _⟩ => ⟨S16x64x4096, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]

class Facts₀ : Prop where
  transposes_S16x64x4096_S16x4096x64_0_2_1 : S16x64x4096.Transposes [0, 2, 1] S16x4096x64
  shapeCasts_S16x4096x64_S65536x64 : S16x4096x64.ShapeCasts S65536x64
  bcast_S_S65536x20 : S_.BroadcastsInDim S65536x20 (![] : Fin 0 → Fin S65536x20.rank)
  bcast_S65536x20_S65536x20x1_0_1 : S65536x20.BroadcastsInDim S65536x20x1 (![0, 1] : Fin 2 → Fin S65536x20x1.rank)
  transposes_S65536x20x64_S65536x64x20_0_2_1 : S65536x20x64.Transposes [0, 2, 1] S65536x64x20
  shapeCasts_S65536x64x20_S65536x4x16x20 : S65536x64x20.ShapeCasts S65536x4x16x20
  transposes_S65536x4x16x20_S65536x16x4x20_0_2_1_3 : S65536x4x16x20.Transposes [0, 2, 1, 3] S65536x16x4x20
  shapeCasts_S65536x16x4x20_S65536x64x20 : S65536x16x4x20.ShapeCasts S65536x64x20
  shapeCasts_S65536x64x20_S65536x1280 : S65536x64x20.ShapeCasts S65536x1280
  transposes_S64x1280_S1280x64_1_0 : S64x1280.Transposes [1, 0] S1280x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S16x4096x64 : S65536x64.ShapeCasts S16x4096x64
  transposes_S16x4096x64_S16x64x4096_0_2_1 : S16x4096x64.Transposes [0, 2, 1] S16x64x4096
  reducesTo_S16x64x4096_S64_d0_2 : S16x64x4096.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S16x64x4096_0_1_2 : S1x64x1.BroadcastsInDim S16x64x4096 (![0, 1, 2] : Fin 3 → Fin S16x64x4096.rank)
  gather_S65536x64_S65536x20x1_S65536x20x64_2_0_n_n_0_2_164_wf : GatherDims.WF S65536x64 S65536x20x1 S65536x20x64 [2] [0] [] [0] [] 2 ![1, 64]
  dot_S65536x64x20_S65536x20x20_S65536x64x20_2_1_1_2_0_0_wf : DotDims.WF S65536x64x20 S65536x20x20 S65536x64x20 [2] [1] [1] [2] [0] [0]
  dot_S65536x1280_S1280x64_S65536x64_1_0_0_1_n_n_wf : DotDims.WF S65536x1280 S1280x64 S65536x64 [1] [0] [0] [1] [] []

variable [Facts₀]

def gather_S65536x64_S65536x20x1_S65536x20x64_2_0_n_n_0_2_164 : GatherDims S65536x64 S65536x20x1 S65536x20x64 where
  offsetDims := [2]
  collapsedSliceDims := [0]
  operandBatchingDims := []
  startIndicesBatchingDims := []
  startIndexMap := [0]
  indexVectorDim := 2
  sliceSizes := ![1, 64]
  wf := gather_S65536x64_S65536x20x1_S65536x20x64_2_0_n_n_0_2_164_wf
def dot_S65536x64x20_S65536x20x20_S65536x64x20_2_1_1_2_0_0 : DotDims S65536x64x20 S65536x20x20 S65536x64x20 where
  lhsContracting := [2]
  rhsContracting := [1]
  lhsNonContracting := [1]
  rhsNonContracting := [2]
  lhsBatch := [0]
  rhsBatch := [0]
  wf := dot_S65536x64x20_S65536x20x20_S65536x64x20_2_1_1_2_0_0_wf
def dot_S65536x1280_S1280x64_S65536x64_1_0_0_1_n_n : DotDims S65536x1280 S1280x64 S65536x64 where
  lhsContracting := [1]
  rhsContracting := [0]
  lhsNonContracting := [0]
  rhsNonContracting := [1]
  lhsBatch := []
  rhsBatch := []
  wf := dot_S65536x1280_S1280x64_S65536x64_1_0_0_1_n_n_wf

class Facts : Prop extends Facts₀ where

variable [Facts]
-- ==== Proof.Spec.lean ====
/-
  The function both programs compute, stated once over literal shapes.

  A point cloud feature x : [16, 64, 4096] is laid out as a table of 65536 rows (one per batch-and-point) and 64 channels.
  Each row p has 20 neighbour rows, named by an integer table; a negative entry counts from the end and the result is
  brought inside [0, 65535]. The 64 channels are regrouped: new channel c stands for old channel (c mod 4) * 16 + c / 4.
  For row p, new channel c and slot s (20 slots) the neighbours are mixed by the row's own 20 x 20 matrix:
      mix p c s = sum over k of table (neighbour p k) (old channel of c) * pm p k s.
  The 64 x 20 mixes of a row are read as one vector of 1280 entries (entry j is channel j / 20, slot j mod 20) and sent
  through a linear layer: pre p o = sum over j of mix p (j / 20) (j mod 20) * w o j + b o.
  The 65536 x 64 array pre is then normalised per output channel over all rows (mean and variance over batch and
  point), scaled by gamma and shifted by beta; that last stage is the same text in both programs and is kept here as ONE
  function, tail, which no proof opens.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.PaiConv

/-! ## Shapes -/

abbrev SFeat : Shape := ⟨3, ![16, 64, 4096]⟩
abbrev SFeatT : Shape := ⟨3, ![16, 4096, 64]⟩
abbrev SRows : Shape := ⟨2, ![65536, 64]⟩
abbrev SNbr : Shape := ⟨2, ![65536, 20]⟩
abbrev SNbr1 : Shape := ⟨3, ![65536, 20, 1]⟩
abbrev SGath : Shape := ⟨3, ![65536, 20, 64]⟩
abbrev SMix : Shape := ⟨3, ![65536, 20, 20]⟩
abbrev SW : Shape := ⟨2, ![64, 1280]⟩
abbrev SCh : Shape := ⟨1, ![64]⟩
abbrev S0 : Shape := ⟨0, ![]⟩
abbrev SCh3 : Shape := ⟨3, ![1, 64, 1]⟩

/-! ## Shape relations the operations take -/

theorem feat_transposes : SFeat.Transposes [0, 2, 1] SFeatT := by decide
theorem featT_casts_rows : SFeatT.ShapeCasts SRows := by decide
theorem rows_casts_featT : SRows.ShapeCasts SFeatT := by decide
theorem featT_transposes : SFeatT.Transposes [0, 2, 1] SFeat := by decide
theorem feat_reducesTo_ch : SFeat.ReducesTo [0, 2] SCh := by decide
theorem s0_pos : 0 < S0.numel := by decide
theorem ch_bcast_ch3 : SCh.BroadcastsInDim SCh3 (![1] : Fin 1 → Fin SCh3.rank) := by decide
theorem s0_bcast_ch3 : S0.BroadcastsInDim SCh3 (![] : Fin 0 → Fin SCh3.rank) := by decide
theorem ch3_bcast_feat : SCh3.BroadcastsInDim SFeat (![0, 1, 2] : Fin 3 → Fin SFeat.rank) := by decide
theorem s0_bcast_nbr : S0.BroadcastsInDim SNbr (![] : Fin 0 → Fin SNbr.rank) := by decide
theorem nbr_bcast_nbr1 : SNbr.BroadcastsInDim SNbr1 (![0, 1] : Fin 2 → Fin SNbr1.rank) := by decide

/-! ## The row table and the neighbour table -/

/-- The feature as a table: row b * 4096 + n, channel c holds x at (b, c, n). -/
def rowTable (x : FVec Ideal SFeat .f32) : FVec Ideal SRows .f32 :=
  shapeCast SRows (transpose SFeatT [0, 2, 1] x feat_transposes) featT_casts_rows

/-- The neighbour table as the gather takes it: a negative entry has 65536 added, and a trailing unit axis is put on. -/
def nbrTable (a : IVec SNbr 32) : IVec SNbr1 32 :=
  broadcastInDim SNbr1 ![0, 1] nbr_bcast_nbr1
    (select (cmpi .slt a (broadcastInDim SNbr ![] s0_bcast_nbr (constantI S0 32 0#32)))
      (addi a (broadcastInDim SNbr ![] s0_bcast_nbr (constantI S0 32 65536#32))) a)

/-- The row a start-index word names: read signed, brought inside [0, 65535]. -/
def rowOf (v : BitVec 32) : Fin 65536 := ⟨min v.toInt.toNat 65535, by omega⟩

/-- The channel regrouping: new channel c stands for old channel (c mod 4) * 16 + c / 4. -/
def oldChannel (c : Fin 64) : Fin 64 := ⟨(c.val % 4) * 16 + c.val / 4, by have := c.isLt; omega⟩

/-- Channel and slot of entry j of a row's 1280-vector. -/
def chanOf (j : Fin 1280) : Fin 64 := ⟨j.val / 20, by have := j.isLt; omega⟩
def slotOf (j : Fin 1280) : Fin 20 := ⟨j.val % 20, Nat.mod_lt _ (by decide)⟩

/-! ## The array before normalisation, index by index -/

/-- Row p, output channel o: the linear layer over the row's 1280 mixes, plus the bias. T is the row table, I the neighbour
    table as the gather takes it. -/
def preAt (T : FVec Ideal SRows .f32) (I : IVec SNbr1 32) (pm : FVec Ideal SMix .f32) (w : FVec Ideal SW .f32)
    (b : FVec Ideal SCh .f32) (p : Fin 65536) (o : Fin 64) : EReal :=
  (∑ j : Fin 1280,
      (∑ k : Fin 20, T (ix2 (rowOf (I (ix3 p k (0 : Fin 1)))) (oldChannel (chanOf j))) * pm (ix3 p k (slotOf j)))
        * w (ix2 o j))
    + b (ix1 o)

/-- The same as an array. -/
def pre (T : FVec Ideal SRows .f32) (I : IVec SNbr1 32) (pm : FVec Ideal SMix .f32) (w : FVec Ideal SW .f32)
    (b : FVec Ideal SCh .f32) : FVec Ideal SRows .f32 :=
  fun i => preAt T I pm w b (i 0) (i 1)

theorem pre_ix2 (T : FVec Ideal SRows .f32) (I : IVec SNbr1 32) (pm : FVec Ideal SMix .f32) (w : FVec Ideal SW .f32)
    (b : FVec Ideal SCh .f32) (p : Fin 65536) (o : Fin 64) : pre T I pm w b (ix2 p o) = preAt T I pm w b p o := rfl

/-! ## The normalisation, as one function -/

/-- From the 65536 x 64 array to the result [16, 64, 4096]: back to (batch, channel, point); per channel the mean and the
    (biased) variance over batch and point; (y - mean) * rsqrt (var + eps) * gamma + beta. Both programs apply exactly this
    text; it is compared only as a whole. -/
def tail (y0 : FVec Ideal SRows .f32) (gamma beta : FVec Ideal SCh .f32) : FVec Ideal SFeat .f32 :=
  let y : FVec Ideal SFeat .f32 := transpose SFeat [0, 2, 1] (shapeCast SFeatT y0 rows_casts_featT) featT_transposes
  let n : FVec Ideal SCh3 .f32 := broadcastInDim SCh3 ![] s0_bcast_ch3 (constant S0 .f32 0x47800000#32)
  let mean : FVec Ideal SCh3 .f32 :=
    Host.divf (broadcastInDim SCh3 ![1] ch_bcast_ch3 (Host.reduceAdd y (constant S0 .f32 0x00000000#32) feat_reducesTo_ch s0_pos)) n
  let d : FVec Ideal SFeat .f32 := subf y (broadcastInDim SFeat ![0, 1, 2] ch3_bcast_feat mean)
  let cnt : FVec Ideal S0 .f32 := subf (constant S0 .f32 0x47800000#32) (sitofp .f32 (constantI S0 32 0#32))
  let var0 : FVec Ideal SCh3 .f32 :=
    Host.divf (broadcastInDim SCh3 ![1] ch_bcast_ch3 (Host.reduceAdd (mulf d d) (constant S0 .f32 0x00000000#32) feat_reducesTo_ch s0_pos))
      (broadcastInDim SCh3 ![] s0_bcast_ch3 cnt)
  let var : FVec Ideal SCh3 .f32 :=
    select (broadcastInDim SCh3 ![] s0_bcast_ch3 (cmpf .ogt cnt (constant S0 .f32 0x00000000#32))) var0
      (broadcastInDim SCh3 ![] s0_bcast_ch3 (id (constant S0 .f32 0x7FC00000#32)))
  let inv : FVec Ideal SCh3 .f32 :=
    Host.rsqrt (addf var (broadcastInDim SCh3 ![] s0_bcast_ch3 (constant S0 .f32 0x3727C5AC#32)))
  addf
    (mulf (mulf d (broadcastInDim SFeat ![0, 1, 2] ch3_bcast_feat inv))
      (broadcastInDim SFeat ![0, 1, 2] ch3_bcast_feat (broadcastInDim SCh3 ![1] ch_bcast_ch3 gamma)))
    (broadcastInDim SFeat ![0, 1, 2] ch3_bcast_feat (broadcastInDim SCh3 ![1] ch_bcast_ch3 beta))

/-- What both programs return. -/
def result (x : FVec Ideal SFeat .f32) (pm : FVec Ideal SMix .f32) (w : FVec Ideal SW .f32) (b gamma beta : FVec Ideal SCh .f32)
    (a : IVec SNbr 32) : FVec Ideal SFeat .f32 :=
  tail (pre (rowTable x) (nbrTable a) pm w b) gamma beta

end Cert.PaiConv

end
-- ==== Proof.KernelPayload.lean ====
/-
  The kernel body's one stored value read at an entry: for row r of the block and output channel o, the linear layer over
  the row's 1280 mixes of its 20 gathered neighbour rows, plus the bias.
-/
import proofs.«124069_j10050223472786_1_alg».proof.Proof.Gen.KernelIdeal.Skeleton
import proofs.«124069_j10050223472786_1_alg».proof.Proof.Spec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Hand

open Cert.KernelIdeal Cert.KernelIdeal.Gen

/-- The plain product [1024,1280] x [1280,64] into the zero accumulator, read at (r, o): the sum over the contracted
    coordinate. -/
theorem plain_apply (A : FVec Ideal S1024x1280 .bf16) (B : FVec Ideal S1280x64 .bf16) (r : Fin 1024) (o : Fin 64) :
    matmul (F := Ideal) dot_S1024x1280_S1280x64_S1024x64_1_0_0_1_n_n none A B (constant (F := Ideal) S1024x64 .f32 0x00000000#32) (ix2 r o)
      = ∑ j : Fin 1280, A (ix2 r j) * B (ix2 j o) := by
  refine (Ideal.matmul_constant_zero_apply dot_S1024x1280_S1280x64_S1024x64_1_0_0_1_n_n none A B (ix2 r o)).trans ?_
  rw [← Equiv.sum_comp (contrEquiv1 dot_S1024x1280_S1280x64_S1024x64_1_0_0_1_n_n 1280 rfl rfl).symm]
  refine Finset.sum_congr rfl fun c _ => ?_
  have c2 := contrEquiv1_symm_val dot_S1024x1280_S1280x64_S1024x64_1_0_0_1_n_n 1280 rfl rfl c
  have l2 : dot_S1024x1280_S1280x64_S1024x64_1_0_0_1_n_n.lhsIdx (ix2 r o)
      ((contrEquiv1 dot_S1024x1280_S1280x64_S1024x64_1_0_0_1_n_n 1280 rfl rfl).symm c) = ix2 r c := by
    funext ax; apply Fin.ext
    match ax with
    | ⟨0, _⟩ => simp [DotDims.lhsIdx, dot_S1024x1280_S1280x64_S1024x64_1_0_0_1_n_n]; rfl
    | ⟨1, _⟩ => simp [DotDims.lhsIdx, dot_S1024x1280_S1280x64_S1024x64_1_0_0_1_n_n]; exact c2
  have r2 : dot_S1024x1280_S1280x64_S1024x64_1_0_0_1_n_n.rhsIdx (ix2 r o)
      ((contrEquiv1 dot_S1024x1280_S1280x64_S1024x64_1_0_0_1_n_n 1280 rfl rfl).symm c) = ix2 c o := by
    funext ax; apply Fin.ext
    match ax with
    | ⟨0, _⟩ => simp [DotDims.rhsIdx, dot_S1024x1280_S1280x64_S1024x64_1_0_0_1_n_n]; exact c2
    | ⟨1, _⟩ => simp [DotDims.rhsIdx, dot_S1024x1280_S1280x64_S1024x64_1_0_0_1_n_n]; rfl
  rw [l2, r2]

/-- The batched product, batch axis 0, both operands contracted on axis 1: [1024,20,64] x [1024,20,20] into the zero
    accumulator [1024,64,20], read at (r, c, s): the sum over the 20 contracted positions. -/
theorem batched_apply (A : FVec Ideal S1024x20x64 .bf16) (B : FVec Ideal S1024x20x20 .bf16) (r : Fin 1024) (c : Fin 64) (s : Fin 20) :
    matmul (F := Ideal) dot_S1024x20x64_S1024x20x20_S1024x64x20_1_1_2_2_0_0 none A B (constant (F := Ideal) S1024x64x20 .f32 0x00000000#32) (ix3 r c s)
      = ∑ k : Fin 20, A (ix3 r k c) * B (ix3 r k s) := by
  refine (Ideal.matmul_constant_zero_apply dot_S1024x20x64_S1024x20x20_S1024x64x20_1_1_2_2_0_0 none A B (ix3 r c s)).trans ?_
  rw [← Equiv.sum_comp (contrEquiv1 dot_S1024x20x64_S1024x20x20_S1024x64x20_1_1_2_2_0_0 20 rfl rfl).symm]
  refine Finset.sum_congr rfl fun k _ => ?_
  have c3 := contrEquiv1_symm_val dot_S1024x20x64_S1024x20x20_S1024x64x20_1_1_2_2_0_0 20 rfl rfl k
  have l3 : dot_S1024x20x64_S1024x20x20_S1024x64x20_1_1_2_2_0_0.lhsIdx (ix3 r c s)
      ((contrEquiv1 dot_S1024x20x64_S1024x20x20_S1024x64x20_1_1_2_2_0_0 20 rfl rfl).symm k) = ix3 r k c := by
    funext ax; apply Fin.ext
    match ax with
    | ⟨0, _⟩ => simp [DotDims.lhsIdx, dot_S1024x20x64_S1024x20x20_S1024x64x20_1_1_2_2_0_0]; rfl
    | ⟨1, _⟩ => simp [DotDims.lhsIdx, dot_S1024x20x64_S1024x20x20_S1024x64x20_1_1_2_2_0_0]; exact c3
    | ⟨2, _⟩ => simp [DotDims.lhsIdx, dot_S1024x20x64_S1024x20x20_S1024x64x20_1_1_2_2_0_0]; rfl
  have r3 : dot_S1024x20x64_S1024x20x20_S1024x64x20_1_1_2_2_0_0.rhsIdx (ix3 r c s)
      ((contrEquiv1 dot_S1024x20x64_S1024x20x20_S1024x64x20_1_1_2_2_0_0 20 rfl rfl).symm k) = ix3 r k s := by
    funext ax; apply Fin.ext
    match ax with
    | ⟨0, _⟩ => simp [DotDims.rhsIdx, dot_S1024x20x64_S1024x20x20_S1024x64x20_1_1_2_2_0_0]; rfl
    | ⟨1, _⟩ => simp [DotDims.rhsIdx, dot_S1024x20x64_S1024x20x20_S1024x64x20_1_1_2_2_0_0]; exact c3
    | ⟨2, _⟩ => simp [DotDims.rhsIdx, dot_S1024x20x64_S1024x20x20_S1024x64x20_1_1_2_2_0_0]; rfl
  rw [l3, r3]

/-- Entry j of a row's 1280-vector is entry (j / 20, j mod 20) of the row's 64 x 20 block: the two row-major positions
    agree. -/
theorem cast_apply (V : FVec Ideal S1024x64x20 .f32) (r : Fin 1024) (j : Fin 1280) :
    shapeCast S1024x1280 V Facts₀.shapeCasts_S1024x64x20_S1024x1280 (ix2 r j)
      = V (ix3 r (Cert.PaiConv.chanOf j) (Cert.PaiConv.slotOf j)) := by
  refine shapeCast_apply V _ (ix2 r j) (ix3 r (Cert.PaiConv.chanOf j) (Cert.PaiConv.slotOf j)) ?_
  rw [Shape.rowMajor_val_three, Shape.rowMajor_val_two]
  show (r.val * 64 + j.val / 20) * 20 + j.val % 20 = r.val * 1280 + j.val
  omega

/-- The bias row broadcast down the 1024 rows, read at (r, o): the bias at (0, o). -/
theorem bias_apply (b : FVec Ideal S1x64 .f32) (r : Fin 1024) (o : Fin 64) :
    broadcastTo S1024x64 b Facts₀.broadcasts_S1x64_S1024x64 (ix2 r o) = b (ix2 (0 : Fin 1) o) := by
  refine broadcastTo_apply b _ (ix2 r o) (ix2 (0 : Fin 1) o) fun a => ?_
  match a with
  | ⟨0, _⟩ => rfl
  | ⟨1, _⟩ => rfl

/-- Entry (r, o) of the stored block: sum over the 1280 (channel, slot) pairs of (sum over the 20 neighbours of gathered
    row entry times mixing entry) times the transposed weight, plus the bias row. -/
theorem pay_apply (x0 : Vec Ideal S1024x20x64 .bf16) (x1 : Vec Ideal S1024x20x20 .f32) (x2 : Vec Ideal S1280x64 .f32)
    (x3 : Vec Ideal S1x64 .f32) (r : Fin 1024) (o : Fin 64) :
    k0_pay1 (F := Ideal) x0 x1 x2 x3 (ix2 r o)
      = (∑ j : Fin 1280,
            (∑ k : Fin 20, x0 (ix3 r k (Cert.PaiConv.chanOf j)) * x1 (ix3 r k (Cert.PaiConv.slotOf j))) * x2 (ix2 j o))
          + x3 (ix2 (0 : Fin 1) o) := by
  unfold k0_pay1
  simp only [shapeCast_self]
  refine (addf_apply _ _ _).trans ?_
  refine congrArg₂ (· + ·) ?_ (bias_apply x3 r o)
  refine (plain_apply _ _ r o).trans ?_
  refine Finset.sum_congr rfl fun j _ => ?_
  refine congrArg₂ (· * ·) ?_ (truncf_apply (φ := .f32) (ψ := .bf16) x2 Facts₀.bitsLt_bf16_f32 (ix2 j o))
  refine (truncf_apply (φ := .f32) (ψ := .bf16) _ Facts₀.bitsLt_bf16_f32 (ix2 r j)).trans ?_
  refine (cast_apply _ r j).trans ?_
  refine (batched_apply _ _ r _ _).trans ?_
  exact Finset.sum_congr rfl fun k _ => congrArg (x0 _ * ·) (truncf_apply (φ := .f32) (ψ := .bf16) x1 Facts₀.bitsLt_bf16_f32 _)

end Cert.KernelIdeal.Hand

end
-- ==== Proof.KernelHost.lean ====
/-
  What the kernel program's host operations compute around its one region.
  Before the region: the row table with its channels regrouped (new channel c holds old channel (c mod 4) * 16 + c / 4),
  the neighbour gather on that regrouped table, the weight transposed and the bias as a one-row matrix.
  After the region: the normalisation, applied to the array the region wrote.
-/
import proofs.«124069_j10050223472786_1_alg».proof.Proof.Gen.KernelIdeal.Frame
import proofs.«124069_j10050223472786_1_alg».proof.Proof.Spec
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.StableHlo

namespace Cert.KernelIdeal.Hand

open Cert.KernelIdeal Cert.KernelIdeal.Gen

variable (m : (ℓ : Loc nD τ sig) → Buf (Elt Ideal) ℓ)

/-- The row table with its channels regrouped, as the kernel program builds it before the gather: rows of 64 read as
    4 x 16, the two swapped, read back as 64 (and a change of float format, which is the identity on extended reals). -/
def kerTable (x : FVec Ideal S16x64x4096 .f32) : FVec Ideal S65536x64 .bf16 :=
  truncf .bf16
    (shapeCast S65536x64
      (transpose S65536x16x4 [0, 2, 1]
        (shapeCast S65536x4x16 (Cert.PaiConv.rowTable x) shapeCasts_S65536x64_S65536x4x16)
        transposes_S65536x4x16_S65536x16x4_0_2_1)
      shapeCasts_S65536x16x4_S65536x64)
    bitsLt_bf16_f32

/-- The region's first operand: the gather of the regrouped table at the neighbour table. -/
theorem V_gathered (c : Dev nD) :
    (V m c main_v12 : S65536x20x64.Idx → EReal)
      = Host.gather gather_S65536x64_S65536x20x1_S65536x20x64_2_0_n_n_0_2_164
          (kerTable (m ((c : Thread nD τ).loc main_arg0))) (Cert.PaiConv.nbrTable (m ((c : Thread nD τ).loc main_arg6))) := by
  show StableHlo.after hostOps0 (fun b => m (c, b)) (Proc.devRef .tc main_v12) = _
  after_results
  rfl

/-- Its third operand: the weight transposed. -/
theorem V_wT (c : Dev nD) :
    (V m c main_v13 : S1280x64.Idx → EReal)
      = transpose S1280x64 [1, 0] (m ((c : Thread nD τ).loc main_arg2)) transposes_S64x1280_S1280x64_1_0 := by
  show StableHlo.after hostOps0 (fun b => m (c, b)) (Proc.devRef .tc main_v13) = _
  after_results

/-- Its fourth operand: the bias as a one-row matrix. -/
theorem V_b2 (c : Dev nD) :
    (V m c main_v14 : S1x64.Idx → EReal)
      = shapeCast S1x64 (m ((c : Thread nD τ).loc main_arg3)) shapeCasts_S64_S1x64 := by
  show StableHlo.after hostOps0 (fun b => m (c, b)) (Proc.devRef .tc main_v14) = _
  after_results
  funext i
  rfl

/-- Rows of 64 read as 4 x 16, the two swapped, read back as 64: entry c of the new row is entry (c mod 4) * 16 + c / 4
    of the old one. -/
theorem regroup_apply (T : FVec Ideal S65536x64 .f32) (n : Fin 65536) (c : Fin 64) :
    shapeCast S65536x64
        (transpose S65536x16x4 [0, 2, 1] (shapeCast S65536x4x16 T shapeCasts_S65536x64_S65536x4x16)
          transposes_S65536x4x16_S65536x16x4_0_2_1)
        shapeCasts_S65536x16x4_S65536x64 (ix2 n c)
      = T (ix2 n (Cert.PaiConv.oldChannel c)) := by
  have hc := c.isLt
  refine (shapeCast_apply _ _ (ix2 n c) (ix3 n (⟨c.val / 4, by omega⟩ : Fin 16) (⟨c.val % 4, by omega⟩ : Fin 4)) ?_).trans ?_
  · rw [Shape.rowMajor_val_three, Shape.rowMajor_val_two]
    show (n.val * 16 + c.val / 4) * 4 + c.val % 4 = n.val * 64 + c.val
    omega
  refine (transpose_apply _ _ _ (ix3 n (⟨c.val / 4, by omega⟩ : Fin 16) (⟨c.val % 4, by omega⟩ : Fin 4))
    (ix3 n (⟨c.val % 4, by omega⟩ : Fin 4) (⟨c.val / 4, by omega⟩ : Fin 16)) ?_).trans ?_
  · intro b
    match b with
    | ⟨0, _⟩ => rfl
    | ⟨1, _⟩ => rfl
    | ⟨2, _⟩ => rfl
  refine (shapeCast_apply _ _ (ix3 n (⟨c.val % 4, by omega⟩ : Fin 4) (⟨c.val / 4, by omega⟩ : Fin 16)) (ix2 n (Cert.PaiConv.oldChannel c)) ?_)
  rw [Shape.rowMajor_val_three, Shape.rowMajor_val_two]
  show n.val * 64 + ((c.val % 4) * 16 + c.val / 4) = (n.val * 4 + c.val % 4) * 16 + c.val / 4
  omega

/-- The regrouped table at row n, new channel c is the row table at row n, old channel (c mod 4) * 16 + c / 4. -/
theorem kerTable_apply (x : FVec Ideal S16x64x4096 .f32) (n : Fin 65536) (c : Fin 64) :
    kerTable x (ix2 n c) = Cert.PaiConv.rowTable x (ix2 n (Cert.PaiConv.oldChannel c)) := by
  unfold kerTable
  exact (truncf_apply (ψ := .bf16) _ bitsLt_bf16_f32 (ix2 n c)).trans (regroup_apply _ n c)

end Cert.KernelIdeal.Hand

end
-- ==== Proof.LibGatherStack.lean ====
/-
  A row gather of a rank-2 table read at one element of its rank-3 result. The start indices are an [n x K x 1] table
  of row numbers and whole rows are taken (what table[idx] prints as, for a rank-2 table and a rank-2 index table):
  element (e, k, j) of the result is the table at the row the start index of (e, k) names, read as a signed integer
  and brought inside the table, at column j.
-/
import Idealize.ShloMosaic.PureOps.Ideal
import Idealize.ShloMosaic.Lib.ValueIdx

noncomputable section

open Idealize.ShloMosaic Idealize.ShloMosaic.ValueIdx

namespace Cert.LibGatherStack

/-- Equal lists have equal entries at equal positions. -/
private theorem getElem_of_eq {β : Type} (l l' : List β) (hl : l = l') (k k' : Nat) (hkk : k = k')
    (hk : k < l.length) (hk' : k' < l'.length) : l[k] = l'[k'] := by
  subst hl
  subst hkk
  rfl

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The result's two batch axes are axes 0 and 1: axis 2 is the offset axis. -/
private theorem batchDims_eq {s si : Shape} {n K C : Nat} (d : GatherDims s si ⟨3, ![n, K, C]⟩)
    (hoff : d.offsetDims = [2]) : d.batchDims = [0, 1] := by
  show Shape.kept _ d.offsetDims = [0, 1]
  rw [hoff]
  show (List.finRange 3).filter (fun a : Fin 3 => a ∉ ([2] : List (Fin 3))) = [0, 1]
  decide

/-- The start-index table's axes other than the index vector's are axes 0 and 1. -/
private theorem siKept_eq {s t : Shape} {n K m : Nat} (d : GatherDims s ⟨3, ![n, K, m]⟩ t)
    (hiv : d.indexVectorDim = 2) : d.siKept = [0, 1] := by
  show (List.finRange 3).filter (fun a : Fin 3 => a.val ≠ d.indexVectorDim) = [0, 1]
  rw [hiv]
  decide

/-- The operand's one axis that is neither collapsed nor batching is axis 1. -/
private theorem sKept_eq {si t : Shape} {N C0 : Nat} (d : GatherDims ⟨2, ![N, C0]⟩ si t)
    (hcol : d.collapsedSliceDims = [0]) (hob : d.operandBatchingDims = []) : d.sKept = [1] := by
  show Shape.kept _ (d.collapsedSliceDims ++ d.operandBatchingDims) = [1]
  rw [hcol, hob, List.append_nil]
  show (List.finRange 2).filter (fun a : Fin 2 => a ∉ ([0] : List (Fin 2))) = ([1] : List (Fin 2))
  decide

/-- Component c of the start index of a result element is read off the start-index table at the element's two batch
    coordinates and at position c of the index vector. -/
private theorem siIdx_eq {s : Shape} {n K m C : Nat} (d : GatherDims s ⟨3, ![n, K, m]⟩ ⟨3, ![n, K, C]⟩)
    (hoff : d.offsetDims = [2]) (hiv : d.indexVectorDim = 2) (j : (⟨3, ![n, K, C]⟩ : Shape).Idx)
    (c : Fin d.startIndexMap.length) (k : Fin m) (hk : c.val = k.val) :
    d.siIdx j c = ix3 (j 0) (j 1) k := by
  funext b
  match b with
  | ⟨0, _⟩ =>
    unfold GatherDims.siIdx
    rw [dif_neg (by rw [hiv]; simp)]
    unfold GatherDims.siCoord
    apply Fin.ext
    simp only [Fin.val_cast]
    have hp : d.siKept.idxOf (⟨0, by omega⟩ : Fin 3) = 0 := by rw [siKept_eq d hiv]; rfl
    rw [getElem_of_eq _ _ (batchDims_eq d hoff) _ 0 hp _ (by simp)]
    rfl
  | ⟨1, _⟩ =>
    unfold GatherDims.siIdx
    rw [dif_neg (by rw [hiv]; simp)]
    unfold GatherDims.siCoord
    apply Fin.ext
    simp only [Fin.val_cast]
    have hp : d.siKept.idxOf (⟨1, by omega⟩ : Fin 3) = 1 := by rw [siKept_eq d hiv]; rfl
    rw [getElem_of_eq _ _ (batchDims_eq d hoff) _ 1 hp _ (by simp)]
    rfl
  | ⟨2, _⟩ =>
    unfold GatherDims.siIdx
    rw [dif_pos (by rw [hiv])]
    apply Fin.ext
    show c.val = k.val
    exact hk

/-- On the row axis, which is collapsed and which component c of the start index addresses, the slice starts at that
    component, read signed and brought inside the table. -/
private theorem start_row {N C0 C n K m w : Nat} (d : GatherDims ⟨2, ![N, C0]⟩ ⟨3, ![n, K, m]⟩ ⟨3, ![n, K, C]⟩)
    (hoff : d.offsetDims = [2]) (hcol : d.collapsedSliceDims = [0]) (hiv : d.indexVectorDim = 2)
    (hmem : (0 : Fin 2) ∈ d.startIndexMap) (k : Fin m) (hk : d.startIndexMap.idxOf (0 : Fin 2) = k.val)
    (idx : IVec ⟨3, ![n, K, m]⟩ w) (j : (⟨3, ![n, K, C]⟩ : Shape).Idx) :
    d.start j idx 0 = min (idx (ix3 (j 0) (j 1) k)).toInt.toNat (N - 1) := by
  have hsl : d.sliceSizes 0 = 1 := d.slice_collapsed 0 (by rw [hcol]; exact List.mem_singleton.mpr rfl)
  unfold GatherDims.start
  rw [dif_pos hmem, siIdx_eq d hoff hiv j _ k hk, hsl]
  rfl

/-- On an axis no component of the start index addresses, the slice starts at 0. -/
private theorem start_not_mem {s si t : Shape} {w : Nat} (d : GatherDims s si t) (idx : IVec si w) (j : t.Idx)
    (b : Fin s.rank) (hb : b ∉ d.startIndexMap) : d.start j idx b = 0 := by
  unfold GatherDims.start
  rw [dif_neg hb]

/-- The collapsed row axis has no offset coordinate. -/
private theorem offCoord_row {si t : Shape} {N C0 : Nat} (d : GatherDims ⟨2, ![N, C0]⟩ si t)
    (hcol : d.collapsedSliceDims = [0]) (j : t.Idx) : d.offCoord j 0 = 0 := by
  apply d.offCoord_eq_zero
  intro h
  exact ((d.mem_sKept 0).1 h).1 (by rw [hcol]; exact List.mem_singleton.mpr rfl)

/-- The column axis's offset coordinate is the result's coordinate on its last axis. -/
private theorem offCoord_col {si : Shape} {N C0 n K C : Nat} (d : GatherDims ⟨2, ![N, C0]⟩ si ⟨3, ![n, K, C]⟩)
    (hoff : d.offsetDims = [2]) (hcol : d.collapsedSliceDims = [0]) (hob : d.operandBatchingDims = [])
    (j : (⟨3, ![n, K, C]⟩ : Shape).Idx) : d.offCoord j 1 = (j 2).val := by
  have hk : (1 : Fin 2) ∈ d.sKept := by
    rw [sKept_eq d hcol hob]
    exact List.mem_singleton.mpr rfl
  unfold GatherDims.offCoord
  rw [dif_pos hk, getElem_of_eq_singleton _ _ hoff]

/-- The whole-row gather over a two-axis index table read at (e, k, j): the table at the row the start index of (e, k)
    names, read signed and brought into [0, N - 1], at column j. -/
theorem gather_rows_stack {α : Type} {N C n K w : Nat} (d : GatherDims ⟨2, ![N, C]⟩ ⟨3, ![n, K, 1]⟩ ⟨3, ![n, K, C]⟩)
    (hoff : d.offsetDims = [2]) (hcol : d.collapsedSliceDims = [0]) (hob : d.operandBatchingDims = [])
    (hsb : d.startIndicesBatchingDims = []) (hmap : d.startIndexMap = [0]) (hiv : d.indexVectorDim = 2)
    (hss : d.sliceSizes = ![1, C])
    (x : (⟨2, ![N, C]⟩ : Shape).Idx → α) (idx : IVec ⟨3, ![n, K, 1]⟩ w) (e : Fin n) (k : Fin K) (j : Fin C) (hN : 0 < N) :
    Host.gather d x idx (ix3 e k j)
      = x (ix2 (⟨min (idx (ix3 e k (0 : Fin 1))).toInt.toNat (N - 1), by omega⟩ : Fin N) j) := by
  unfold Host.gather
  congr 1
  funext b
  have hb : ∀ b : Fin 2, b ∉ d.operandBatchingDims := fun b => by rw [hob]; exact List.not_mem_nil
  match b with
  | ⟨0, _⟩ =>
    apply Fin.ext
    show d.start (ix3 e k j) idx 0 + d.batchCoord (ix3 e k j) 0 + d.offCoord (ix3 e k j) 0 = _
    rw [start_row d hoff hcol hiv (by rw [hmap]; exact List.mem_singleton.mpr rfl) (0 : Fin 1) (by rw [hmap]; rfl),
      d.batchCoord_eq_zero _ _ (hb 0), offCoord_row d hcol]
    rfl
  | ⟨1, _⟩ =>
    apply Fin.ext
    show d.start (ix3 e k j) idx 1 + d.batchCoord (ix3 e k j) 1 + d.offCoord (ix3 e k j) 1 = _
    rw [start_not_mem d idx _ 1 (by rw [hmap]; show (1 : Fin 2) ∉ ([0] : List (Fin 2)); decide), d.batchCoord_eq_zero _ _ (hb 1), offCoord_col d hoff hcol hob]
    show 0 + 0 + j.val = j.val
    omega

end Cert.LibGatherStack

end
-- ==== Proof.KernelArray.lean ====
/-
  The array the region writes, as one function of the arguments: every block of 1024 rows the region writes back is the
  same index-by-index function of the regrouped gathered rows, the mixing matrices, the transposed weight and the bias,
  and the 64 blocks tile the array; read through the host operations before the region this is the specification's array
  before normalisation.
-/
import proofs.«124069_j10050223472786_1_alg».proof.Proof.Gen.KernelIdeal.Frame
import proofs.«124069_j10050223472786_1_alg».proof.Proof.Spec
import proofs.«124069_j10050223472786_1_alg».proof.Proof.KernelPayload
import proofs.«124069_j10050223472786_1_alg».proof.Proof.KernelHost
import proofs.«124069_j10050223472786_1_alg».proof.Proof.LibGatherStack
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-! ## The array the region writes, over the arrays as the region finds them -/

/-- Row p, output channel o, from the gathered (already regrouped) rows g, the mixing matrices, the transposed weight and
    the bias row: the linear layer over the row's 1280 mixes, plus the bias. -/
def preKAt (g : FVec Ideal S65536x20x64 .bf16) (pm : FVec Ideal S65536x20x20 .f32) (wT : FVec Ideal S1280x64 .f32)
    (b2 : FVec Ideal S1x64 .f32) (p : Fin 65536) (o : Fin 64) : EReal :=
  (∑ j : Fin 1280,
      (∑ k : Fin 20, g (ix3 p k (Cert.PaiConv.chanOf j)) * pm (ix3 p k (Cert.PaiConv.slotOf j))) * wT (ix2 j o))
    + b2 (ix2 (0 : Fin 1) o)

/-- The same as an array. -/
def preK (g : FVec Ideal S65536x20x64 .bf16) (pm : FVec Ideal S65536x20x20 .f32) (wT : FVec Ideal S1280x64 .f32)
    (b2 : FVec Ideal S1x64 .f32) : FVec Ideal S65536x64 .f32 :=
  fun i => preKAt g pm wT b2 (i 0) (i 1)

theorem preK_ix2 (g : FVec Ideal S65536x20x64 .bf16) (pm : FVec Ideal S65536x20x20 .f32) (wT : FVec Ideal S1280x64 .f32)
    (b2 : FVec Ideal S1x64 .f32) (p : Fin 65536) (o : Fin 64) : preK g pm wT b2 (ix2 p o) = preKAt g pm wT b2 p o := rfl

/-! ## The blocks: where each window's block sits in its array -/

theorem zeros2 : (![0, 0] : Fin 2 → Nat) = fun _ => 0 :=
  funext fun a => match a with | ⟨0, _⟩ => rfl | ⟨1, _⟩ => rfl

theorem zeros3 : (![0, 0, 0] : Fin 3 → Nat) = fun _ => 0 :=
  funext fun a => match a with | ⟨0, _⟩ => rfl | ⟨1, _⟩ => rfl | ⟨2, _⟩ => rfl

/-- The printed index maps over the grid: the gathered rows, the mixing matrices and the result move in blocks of 1024
    rows with the point; the transposed weight and the bias row are whole at every point. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of gathered rows at point t is rows 1024 t … 1024 t + 1023 of the gathered array. -/
theorem gathered_block (c : Dev nD) (t : Fin cfg0.N) (x : S1024x20x64.Idx) (i : S65536x20x64.Idx)
    (h0 : (i 0).val = 1024 * t.val + (x 0).val) (h1 : (i 1).val = (x 1).val) (h2 : (i 2).val = (x 2).val) :
    (iblk m c 0 t : Vec Ideal S1024x20x64 .bf16) x = (V m c main_v12 : S65536x20x64.Idx → EReal) i := by
  obtain ⟨e0, e1, e2, -⟩ := block_indices t
  unfold iblk
  rw [View.read_apply]
  refine congrArg (V m c main_v12 : S65536x20x64.Idx → EReal) (funext fun a => Fin.ext ?_)
  match a with
  | ⟨0, _⟩ => show win0_0.index t (0 : Fin 3) * 1024 + 1 * (x 0).val = (i 0).val; omega
  | ⟨1, _⟩ => show win0_0.index t (1 : Fin 3) * 20 + 1 * (x 1).val = (i 1).val; omega
  | ⟨2, _⟩ => show win0_0.index t (2 : Fin 3) * 64 + 1 * (x 2).val = (i 2).val; omega

/-- The block of mixing matrices at point t is rows 1024 t … 1024 t + 1023 of their array. -/
theorem mixing_block (c : Dev nD) (t : Fin cfg0.N) (x : S1024x20x20.Idx) (i : S65536x20x20.Idx)
    (h0 : (i 0).val = 1024 * t.val + (x 0).val) (h1 : (i 1).val = (x 1).val) (h2 : (i 2).val = (x 2).val) :
    (iblk m c 1 t : Vec Ideal S1024x20x20 .f32) x = (V m c main_arg1 : S65536x20x20.Idx → EReal) i := by
  obtain ⟨-, -, -, e0, e1, e2, -⟩ := block_indices t
  unfold iblk
  rw [View.read_apply]
  refine congrArg (V m c main_arg1 : S65536x20x20.Idx → EReal) (funext fun a => Fin.ext ?_)
  match a with
  | ⟨0, _⟩ => show win0_1.index t (0 : Fin 3) * 1024 + 1 * (x 0).val = (i 0).val; omega
  | ⟨1, _⟩ => show win0_1.index t (1 : Fin 3) * 20 + 1 * (x 1).val = (i 1).val; omega
  | ⟨2, _⟩ => show win0_1.index t (2 : Fin 3) * 20 + 1 * (x 2).val = (i 2).val; omega

/-- The transposed weight's block is the whole matrix at every point. -/
theorem weight_block (c : Dev nD) (t : Fin cfg0.N) (x : S1280x64.Idx) :
    (iblk m c 2 t : Vec Ideal S1280x64 .f32) x = (V m c main_v13 : S1280x64.Idx → EReal) x := by
  obtain ⟨-, -, -, -, -, -, e0, e1, -⟩ := block_indices t
  unfold iblk
  rw [View.read_apply]
  refine congrArg (V m c main_v13 : S1280x64.Idx → EReal) (funext fun a => Fin.ext ?_)
  match a with
  | ⟨0, _⟩ => show win0_2.index t (0 : Fin 2) * 1280 + 1 * (x 0).val = (x 0).val; omega
  | ⟨1, _⟩ => show win0_2.index t (1 : Fin 2) * 64 + 1 * (x 1).val = (x 1).val; omega

/-- The bias row's block is the whole row at every point. -/
theorem bias_block (c : Dev nD) (t : Fin cfg0.N) (x : S1x64.Idx) :
    (iblk m c 3 t : Vec Ideal S1x64 .f32) x = (V m c main_v14 : S1x64.Idx → EReal) x := by
  obtain ⟨-, -, -, -, -, -, -, -, e0, e1, -⟩ := block_indices t
  unfold iblk
  rw [View.read_apply]
  refine congrArg (V m c main_v14 : S1x64.Idx → EReal) (funext fun a => Fin.ext ?_)
  match a with
  | ⟨0, _⟩ => show win0_3.index t (0 : Fin 2) * 1 + 1 * (x 0).val = (x 0).val; omega
  | ⟨1, _⟩ => show win0_3.index t (1 : Fin 2) * 64 + 1 * (x 1).val = (x 1).val; omega

/-- The stored block's entry (r, o), when the four operands are the blocks of rows 1024 t … of the gathered rows and of
    the mixing matrices, the whole transposed weight and the whole bias row, is entry (1024 t + r, o) of the array. -/
theorem stored_entry (x0 : Vec Ideal S1024x20x64 .bf16) (x1 : Vec Ideal S1024x20x20 .f32) (x2 : Vec Ideal S1280x64 .f32)
    (x3 : Vec Ideal S1x64 .f32) (g : FVec Ideal S65536x20x64 .bf16) (pm : FVec Ideal S65536x20x20 .f32)
    (wT : FVec Ideal S1280x64 .f32) (b2 : FVec Ideal S1x64 .f32) (t : Nat)
    (h0 : ∀ (x : S1024x20x64.Idx) (i : S65536x20x64.Idx), (i 0).val = 1024 * t + (x 0).val → (i 1).val = (x 1).val →
      (i 2).val = (x 2).val → x0 x = g i)
    (h1 : ∀ (x : S1024x20x20.Idx) (i : S65536x20x20.Idx), (i 0).val = 1024 * t + (x 0).val → (i 1).val = (x 1).val →
      (i 2).val = (x 2).val → x1 x = pm i)
    (h2 : ∀ x : S1280x64.Idx, x2 x = wT x) (h3 : ∀ x : S1x64.Idx, x3 x = b2 x)
    (y : S1024x64.Idx) (i : S65536x64.Idx) (hi0 : (i 0).val = 1024 * t + (y 0).val) (hi1 : (i 1).val = (y 1).val) :
    k0_pay1 (F := Ideal) x0 x1 x2 x3 y = preK g pm wT b2 i := by
  obtain ⟨r, o, rfl⟩ : ∃ (r : Fin 1024) (o : Fin 64), y = ix2 r o := ⟨y 0, y 1, eq_ix2 y⟩
  obtain ⟨p, o', rfl⟩ : ∃ (p : Fin 65536) (o' : Fin 64), i = ix2 p o' := ⟨i 0, i 1, eq_ix2 i⟩
  have hp : p.val = 1024 * t + r.val := hi0
  obtain rfl : o' = o := Fin.ext hi1
  rw [pay_apply, preK_ix2]
  unfold preKAt
  refine congrArg₂ (· + ·) ?_ (h3 _)
  refine Finset.sum_congr rfl fun j _ => ?_
  refine congrArg₂ (· * ·) ?_ (h2 _)
  refine Finset.sum_congr rfl fun k _ => ?_
  exact congrArg₂ (· * ·) (h0 _ _ hp rfl rfl) (h1 _ _ hp rfl rfl)

/-- What point t writes back is its block of the array. -/
theorem flushed_eq (c : Dev nD) (t : Fin cfg0.N) :
    (dats m 0 c).flushed 4 t
      = ((cfg0.win 4).blk t).view.read (Elt Ideal)
          (preK (V m c main_v12) (V m c main_arg1) (V m c main_v13) (V m c main_v14)) := by
  show (cfg0.win 4).cut (grid0.coords t) ((dats m 0 c).after 4 t) = _
  rw [after0_4]
  unfold out0_4
  rw [View.canon_unit_zero zeros2]
  simp only [View.ld_unit_zero (S := S1024x20x64) zeros3, View.ld_unit_zero (S := S1024x20x20) zeros3,
    View.ld_unit_zero (S := S1280x64) zeros2, View.ld_unit_zero (S := S1x64) zeros2]
  obtain ⟨-, -, -, -, -, -, -, -, -, -, e0, e1⟩ := block_indices t
  funext y
  show k0_pay1 (F := Ideal) (iblk m c 0 t) (iblk m c 1 t) (iblk m c 2 t) (iblk m c 3 t) y
    = preK (V m c main_v12) (V m c main_arg1) (V m c main_v13) (V m c main_v14) (((cfg0.win 4).blk t).view.emb y)
  refine stored_entry (iblk m c 0 t) (iblk m c 1 t) (iblk m c 2 t) (iblk m c 3 t) _ _ _ _ t.val
    (gathered_block m c t) (mixing_block m c t) (weight_block m c t) (bias_block m c t) y _ ?_ ?_
  · show win0_4.index t (0 : Fin 2) * 1024 + 1 * (y 0).val = 1024 * t.val + (y 0).val
    omega
  · show win0_4.index t (1 : Fin 2) * 64 + 1 * (y 1).val = (y 1).val
    omega

/-- An index of the array is in point t's block iff each coordinate is in the block's range on its axis. -/
theorem mem_block (t : Fin cfg0.N) (i : S65536x64.Idx) :
    i ∈ ((cfg0.win 4).blk t).view.set
      ↔ ∀ a : Fin 2, win0_4.index t a * S1024x64.size a ≤ (i a).val
          ∧ (i a).val < win0_4.index t a * S1024x64.size a + S1024x64.size a := by
  show i ∈ ((View.whole main_v15).slice (win0_4.rect t)).set ↔ _
  rw [View.set_slice_whole, Rect.mem_set_unit]
  exact Iff.rfl

/-- Every row lies in the block of the point its number divided by 1024 names, and every point writes back. -/
theorem blocks_cover (i : S65536x64.Idx) :
    ∃ t : Fin cfg0.N, (cfg0.win 4).flush t = true ∧ i ∈ ((cfg0.win 4).blk t).view.set := by
  have h0 : (i 0).val < 65536 := (i 0).isLt
  have h1 : (i 1).val < 64 := (i 1).isLt
  have ht : (i 0).val / 1024 < cfg0.N := by rw [show cfg0.N = 64 from N_0]; omega
  refine ⟨⟨(i 0).val / 1024, ht⟩, flush0_4 _, ?_⟩
  rw [mem_block]
  obtain ⟨-, -, -, -, -, -, -, -, -, -, e0, e1⟩ := block_indices ⟨(i 0).val / 1024, ht⟩
  have e0' : win0_4.index ⟨(i 0).val / 1024, ht⟩ (0 : Fin 2) = (i 0).val / 1024 := e0
  intro a
  match a with
  | ⟨0, _⟩ =>
    show win0_4.index _ (0 : Fin 2) * 1024 ≤ (i 0).val ∧ (i 0).val < win0_4.index _ (0 : Fin 2) * 1024 + 1024
    rw [e0']
    omega
  | ⟨1, _⟩ =>
    show win0_4.index _ (1 : Fin 2) * 64 ≤ (i 1).val ∧ (i 1).val < win0_4.index _ (1 : Fin 2) * 64 + 64
    rw [e1]
    omega

/-- After the region the result array is the array of the operands as the region finds them. -/
theorem finalK (c : Dev nD) :
    (dats m 0 c).arrAt 4 cfg0.N = preK (V m c main_v12) (V m c main_arg1) (V m c main_v13) (V m c main_v14) :=
  (dats m 0 c).arrAt_eq_of_cover 4 (preK (V m c main_v12) (V m c main_arg1) (V m c main_v13) (V m c main_v14))
    (fun t _ => flushed_eq m c t) blocks_cover

/-! ## Through the host operations before the region: the specification's array -/

/-- Over the gather of the regrouped table, the transposed weight and the bias as a one-row matrix, entry (p, o) is the
    specification's: the regrouped table at a new channel is the row table at its old channel. -/
theorem preKAt_eq (x : FVec Ideal S16x64x4096 .f32) (I : IVec S65536x20x1 32) (pm : FVec Ideal S65536x20x20 .f32)
    (w : FVec Ideal S64x1280 .f32) (b : FVec Ideal S64 .f32) (p : Fin 65536) (o : Fin 64) :
    preKAt (Host.gather gather_S65536x64_S65536x20x1_S65536x20x64_2_0_n_n_0_2_164 (kerTable x) I) pm
        (transpose S1280x64 [1, 0] w transposes_S64x1280_S1280x64_1_0) (shapeCast S1x64 b shapeCasts_S64_S1x64) p o
      = Cert.PaiConv.preAt (Cert.PaiConv.rowTable x) I pm w b p o := by
  unfold preKAt Cert.PaiConv.preAt
  refine congrArg₂ (· + ·) ?_ ?_
  · refine Finset.sum_congr rfl fun j _ => ?_
    refine congrArg₂ (· * ·) ?_ ?_
    · refine Finset.sum_congr rfl fun k _ => ?_
      refine congrArg₂ (· * ·) ?_ rfl
      refine (Cert.LibGatherStack.gather_rows_stack _ rfl rfl rfl rfl rfl rfl rfl (kerTable x) I p k
        (Cert.PaiConv.chanOf j) (by omega)).trans ?_
      exact kerTable_apply x _ _
    · exact transpose_apply _ w _ _ _ fun a => match a with | ⟨0, _⟩ => rfl | ⟨1, _⟩ => rfl
  · refine shapeCast_apply b _ (ix2 (0 : Fin 1) o) (ix1 o) ?_
    rw [Shape.rowMajor_val_one, Shape.rowMajor_val_two]
    show o.val = 0 * 64 + o.val
    omega

/-- After the region its result array holds the specification's array before normalisation, of the arguments as launched. -/
theorem final (c : Dev nD) :
    (dats m 0 c).arrAt 4 cfg0.N
      = Cert.PaiConv.pre (Cert.PaiConv.rowTable (m ((c : Thread nD τ).loc main_arg0)))
          (Cert.PaiConv.nbrTable (m ((c : Thread nD τ).loc main_arg6))) (m ((c : Thread nD τ).loc main_arg1))
          (m ((c : Thread nD τ).loc main_arg2)) (m ((c : Thread nD τ).loc main_arg3)) := by
  refine (finalK m c).trans ?_
  rw [V_gathered m c, V_wT m c, V_b2 m c, V_main_arg1 m c]
  funext i
  obtain ⟨p, o, rfl⟩ : ∃ (p : Fin 65536) (o : Fin 64), i = ix2 p o := ⟨i 0, i 1, eq_ix2 i⟩
  rw [preK_ix2, Cert.PaiConv.pre_ix2]
  exact preKAt_eq _ _ _ _ _ p o

end Cert.KernelIdeal.Hand

end
-- ==== Proof.KernelTail.lean ====
/-
  The kernel program's host operations after its region: whatever the region's result buffer holds, they leave in the
  program's result buffer the normalisation of it (per channel mean and variance over batch and point, scale, shift).
-/
import proofs.«124069_j10050223472786_1_alg».proof.Proof.Gen.KernelIdeal.Frame
import proofs.«124069_j10050223472786_1_alg».proof.Proof.Spec
import Idealize.ShloMosaic.Lib.StableHlo.Run
import Idealize.ShloMosaic.Lib.Pipeline.Value

noncomputable section

open Idealize.ShloMosaic Idealize.ShloMosaic.TcCoe Idealize.SL.Sem
open Idealize.ShloMosaic.StableHlo

namespace Cert.KernelIdeal.Hand

open Cert.KernelIdeal Cert.KernelIdeal.Gen

variable (m : (ℓ : Loc nD τ sig) → Buf (Elt Ideal) ℓ)

attribute [local irreducible] Host.reduceAdd Host.divf Host.rsqrt in
set_option maxRecDepth 8192 in
/-- From any contents of the buffers, the 46 operations after the region leave in the result buffer the normalisation of
    what the region's result buffer held, with the scale and shift arguments as they were. -/
theorem tail_of_valuation (W : Valuation τ sig (Elt Ideal)) :
    StableHlo.after (List.flatten [hostOps1, hostOps1_1, hostOps1_2]) W (Proc.devRef .tc main_v35)
      = Cert.PaiConv.tail (W (Proc.devRef .tc main_v15)) (W (Proc.devRef .tc main_arg4)) (W (Proc.devRef .tc main_arg5)) := by
  simp only [hostOps1, hostOps1_1, hostOps1_2, List.flatten_cons, List.flatten_nil, List.append_nil, List.cons_append,
    List.nil_append]
  after_results_simp
  rfl

/-- So after the whole program the result buffer holds the normalisation of the array the region wrote. -/
theorem tail_eq (c : Dev nD) :
    Pipeline.afterTail₀ cfgs (dats m) 0 (V0 m) [hostOps1, hostOps1_1, hostOps1_2] c main_v35
      = Cert.PaiConv.tail ((dats m 0 c).arrAt 4 cfg0.N) (m ((c : Thread nD τ).loc main_arg4))
          (m ((c : Thread nD τ).loc main_arg5)) := by
  unfold Pipeline.afterTail₀
  rw [tail_of_valuation,
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5))]
  exact congr (congr (congrArg Cert.PaiConv.tail (Pipeline.withArrays_arr spec0 launch0.win.arr_inj c _ _ 4))
    (V_main_arg4 m c)) (V_main_arg5 m c)

end Cert.KernelIdeal.Hand

end
-- ==== Proof.KernelRun.lean ====
/-
  The kernel program's run, read back: every execution ends with the result buffer at the specification's result of the
  arguments as launched (the array the region wrote is the specification's array before normalisation; the host operations
  after the region normalise it), and the arguments unchanged.
-/
import proofs.«124069_j10050223472786_1_alg».proof.Proof.Gen.KernelIdeal.Frame
import proofs.«124069_j10050223472786_1_alg».proof.Proof.Spec
import proofs.«124069_j10050223472786_1_alg».proof.Proof.KernelArray
import proofs.«124069_j10050223472786_1_alg».proof.Proof.KernelTail
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- What the result buffer ends holding: the normalisation of the array the region wrote, which is the specification's. -/
theorem result_eq (c : Dev nD) :
    Pipeline.afterTail₀ cfgs (dats m) 0 (V0 m) [hostOps1, hostOps1_1, hostOps1_2] c main_v35
      = Cert.PaiConv.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [tail_eq m c, final m c]
  rfl

/-- Every weakly fair execution of the kernel program ends with its result at the specification's result of the arguments,
    and the arguments as launched. -/
theorem run :
    θ_run (defs (F := Ideal)) (onTc (τ := τ) (main (F := Ideal))) ⟨m, fun _ => 0, ρ⟩ fun r => ∀ c : Dev nD,
      r.2.mem ((c.tc : Thread nD τ).loc main_v35)
          = Cert.PaiConv.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefRun.lean ====
/-
  The reference program's run, read back: every execution ends with the result buffer at the normalisation of the
  reference's own array before normalisation, the arguments unchanged.
-/
import proofs.«124069_j10050223472786_1_alg».proof.Proof.Gen.ReferenceIdeal
import proofs.«124069_j10050223472786_1_alg».proof.Proof.Spec
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's array before normalisation, as the composition of its operations: the row table, the neighbour
    gather, the channel regrouping on the gathered rows, the per-row mixing product, the linear layer, the bias. -/
def refPre (x : FVec Ideal S16x64x4096 .f32) (pm : FVec Ideal S65536x20x20 .f32) (w : FVec Ideal S64x1280 .f32)
    (b : FVec Ideal S64 .f32) (a : IVec S65536x20 32) : FVec Ideal S65536x64 .f32 :=
  let T : FVec Ideal S65536x64 .f32 :=
    shapeCast S65536x64 (transpose S16x4096x64 [0, 2, 1] x transposes_S16x64x4096_S16x4096x64_0_2_1) shapeCasts_S16x4096x64_S65536x64
  let I : IVec S65536x20x1 32 :=
    broadcastInDim S65536x20x1 ![0, 1] bcast_S65536x20_S65536x20x1_0_1
      (select (cmpi .slt a (broadcastInDim S65536x20 ![] bcast_S_S65536x20 (constantI S_ 32 0#32)))
        (addi a (broadcastInDim S65536x20 ![] bcast_S_S65536x20 (constantI S_ 32 65536#32))) a)
  let g : FVec Ideal S65536x20x64 .f32 := Host.gather gather_S65536x64_S65536x20x1_S65536x20x64_2_0_n_n_0_2_164 T I
  let f : FVec Ideal S65536x64x20 .f32 :=
    shapeCast S65536x64x20
      (transpose S65536x16x4x20 [0, 2, 1, 3]
        (shapeCast S65536x4x16x20 (transpose S65536x64x20 [0, 2, 1] g transposes_S65536x20x64_S65536x64x20_0_2_1)
          shapeCasts_S65536x64x20_S65536x4x16x20)
        transposes_S65536x4x16x20_S65536x16x4x20_0_2_1_3)
      shapeCasts_S65536x16x4x20_S65536x64x20
  let h : FVec Ideal S65536x1280 .f32 :=
    shapeCast S65536x1280 (Host.dotGeneral dot_S65536x64x20_S65536x20x20_S65536x64x20_2_1_1_2_0_0 none f pm)
      shapeCasts_S65536x64x20_S65536x1280
  addf
    (Host.dotGeneral dot_S65536x1280_S1280x64_S65536x64_1_0_0_1_n_n none h
      (transpose S1280x64 [1, 0] w transposes_S64x1280_S1280x64_1_0))
    (broadcastInDim S65536x64 ![0, 1] bcast_S1x64_S65536x64_0_1 (broadcastInDim S1x64 ![1] bcast_S64_S1x64_1 b))

variable {F : FTy → Type} [FloatOps F]

/-- The reference's 68 operations in program order: the 45 of its main function, and at the one call in the middle the 20
    of the variance function over that call's buffers, which in turn end with the 3 of the selection function it calls. -/
abbrev ops : List (HloOp τ sig (Elt F)) :=
  [ unary main_arg0 main_v0 ((transpose S16x4096x64 [0, 2, 1] · transposes_S16x64x4096_S16x4096x64_0_2_1) : (⟨S16x64x4096, .f32⟩ : BufTy).Contents (Elt F) → (⟨S16x4096x64, .f32⟩ : BufTy).Contents (Elt F)),
    reshape main_v0 main_v1 rfl shapeCasts_S16x4096x64_S65536x64,
    nullary main_c (constantI S_ 32 0#32),
    unary main_c main_v2 (broadcastInDim S65536x20 ![] bcast_S_S65536x20 : (⟨S_, .i32⟩ : BufTy).Contents (Elt F) → (⟨S65536x20, .i32⟩ : BufTy).Contents (Elt F)),
    binary main_arg6 main_v2 main_v3 (cmpi .slt : (⟨S65536x20, .i32⟩ : BufTy).Contents (Elt F) → (⟨S65536x20, .i32⟩ : BufTy).Contents (Elt F) → (⟨S65536x20, .i1⟩ : BufTy).Contents (Elt F)),
    nullary main_c_0 (constantI S_ 32 65536#32),
    unary main_c_0 main_v4 (broadcastInDim S65536x20 ![] bcast_S_S65536x20 : (⟨S_, .i32⟩ : BufTy).Contents (Elt F) → (⟨S65536x20, .i32⟩ : BufTy).Contents (Elt F)),
    binary main_arg6 main_v4 main_v5 (addi : (⟨S65536x20, .i32⟩ : BufTy).Contents (Elt F) → (⟨S65536x20, .i32⟩ : BufTy).Contents (Elt F) → (⟨S65536x20, .i32⟩ : BufTy).Contents (Elt F)),
    ternary main_v3 main_v5 main_arg6 main_v6 (select : (⟨S65536x20, .i1⟩ : BufTy).Contents (Elt F) → (⟨S65536x20, .i32⟩ : BufTy).Contents (Elt F) → (⟨S65536x20, .i32⟩ : BufTy).Contents (Elt F) → (⟨S65536x20, .i32⟩ : BufTy).Contents (Elt F)),
    unary main_v6 main_v7 (broadcastInDim S65536x20x1 ![0, 1] bcast_S65536x20_S65536x20x1_0_1 : (⟨S65536x20, .i32⟩ : BufTy).Contents (Elt F) → (⟨S65536x20x1, .i32⟩ : BufTy).Contents (Elt F)),
    binary main_v1 main_v7 main_v8 ((fun x i => Host.gather gather_S65536x64_S65536x20x1_S65536x20x64_2_0_n_n_0_2_164 x i) : (⟨S65536x64, .f32⟩ : BufTy).Contents (Elt F) → (⟨S65536x20x1, .i32⟩ : BufTy).Contents (Elt F) → (⟨S65536x20x64, .f32⟩ : BufTy).Contents (Elt F)),
    unary main_v8 main_v9 ((transpose S65536x64x20 [0, 2, 1] · transposes_S65536x20x64_S65536x64x20_0_2_1) : (⟨S65536x20x64, .f32⟩ : BufTy).Contents (Elt F) → (⟨S65536x64x20, .f32⟩ : BufTy).Contents (Elt F)),
    reshape main_v9 main_v10 rfl shapeCasts_S65536x64x20_S65536x4x16x20,
    unary main_v10 main_v11 ((transpose S65536x16x4x20 [0, 2, 1, 3] · transposes_S65536x4x16x20_S65536x16x4x20_0_2_1_3) : (⟨S65536x4x16x20, .f32⟩ : BufTy).Contents (Elt F) → (⟨S65536x16x4x20, .f32⟩ : BufTy).Contents (Elt F)),
    reshape main_v11 main_v12 rfl shapeCasts_S65536x16x4x20_S65536x64x20,
    binary main_v12 main_arg1 main_v13 ((fun l r => Host.dotGeneral dot_S65536x64x20_S65536x20x20_S65536x64x20_2_1_1_2_0_0 none l r) : (⟨S65536x64x20, .f32⟩ : BufTy).Contents (Elt F) → (⟨S65536x20x20, .f32⟩ : BufTy).Contents (Elt F) → (⟨S65536x64x20, .f32⟩ : BufTy).Contents (Elt F)),
    reshape main_v13 main_v14 rfl shapeCasts_S65536x64x20_S65536x1280,
    unary main_arg2 main_v15 ((transpose S1280x64 [1, 0] · transposes_S64x1280_S1280x64_1_0) : (⟨S64x1280, .f32⟩ : BufTy).Contents (Elt F) → (⟨S1280x64, .f32⟩ : BufTy).Contents (Elt F)),
    binary main_v14 main_v15 main_v16 ((fun l r => Host.dotGeneral dot_S65536x1280_S1280x64_S65536x64_1_0_0_1_n_n none l r) : (⟨S65536x1280, .f32⟩ : BufTy).Contents (Elt F) → (⟨S1280x64, .f32⟩ : BufTy).Contents (Elt F) → (⟨S65536x64, .f32⟩ : BufTy).Contents (Elt F)),
    unary main_arg3 main_v17 (broadcastInDim S1x64 ![1] bcast_S64_S1x64_1 : (⟨S64, .f32⟩ : BufTy).Contents (Elt F) → (⟨S1x64, .f32⟩ : BufTy).Contents (Elt F)),
    unary main_v17 main_v18 (broadcastInDim S65536x64 ![0, 1] bcast_S1x64_S65536x64_0_1 : (⟨S1x64, .f32⟩ : BufTy).Contents (Elt F) → (⟨S65536x64, .f32⟩ : BufTy).Contents (Elt F)),
    binary main_v16 main_v18 main_v19 (addf : (⟨S65536x64, .f32⟩ : BufTy).Contents (Elt F) → (⟨S65536x64, .f32⟩ : BufTy).Contents (Elt F) → (⟨S65536x64, .f32⟩ : BufTy).Contents (Elt F)),
    reshape main_v19 main_v20 rfl shapeCasts_S65536x64_S16x4096x64,
    unary main_v20 main_v21 ((transpose S16x64x4096 [0, 2, 1] · transposes_S16x4096x64_S16x64x4096_0_2_1) : (⟨S16x4096x64, .f32⟩ : BufTy).Contents (Elt F) → (⟨S16x64x4096, .f32⟩ : BufTy).Contents (Elt F)),
    nullary main_cst (constant S_ .f32 0x00000000#32),
    binary main_v21 main_cst main_v22 ((fun x v => Host.reduceAdd x v reducesTo_S16x64x4096_S64_d0_2 h_S_) : (⟨S16x64x4096, .f32⟩ : BufTy).Contents (Elt F) → (⟨S_, .f32⟩ : BufTy).Contents (Elt F) → (⟨S64, .f32⟩ : BufTy).Contents (Elt F)),
    unary main_v22 main_v23 (broadcastInDim S1x64x1 ![1] bcast_S64_S1x64x1_1 : (⟨S64, .f32⟩ : BufTy).Contents (Elt F) → (⟨S1x64x1, .f32⟩ : BufTy).Contents (Elt F)),
    nullary main_cst_1 (constant S_ .f32 0x47800000#32),
    unary main_cst_1 main_v24 (broadcastInDim S1x64x1 ![] bcast_S_S1x64x1 : (⟨S_, .f32⟩ : BufTy).Contents (Elt F) → (⟨S1x64x1, .f32⟩ : BufTy).Contents (Elt F)),
    binary main_v23 main_v24 main_v25 (Host.divf : (⟨S1x64x1, .f32⟩ : BufTy).Contents (Elt F) → (⟨S1x64x1, .f32⟩ : BufTy).Contents (Elt F) → (⟨S1x64x1, .f32⟩ : BufTy).Contents (Elt F)),
    nullary main_c_2 (constantI S_ 32 0#32),
    TRef.nullary main_call0.cst (constant S_ .f32 0x00000000#32),
    TRef.binary (.of main_v21 : StableHlo.TRef sig ⟨S16x64x4096, .f32⟩) main_call0.cst main_call0.v0 (fun x v => Host.reduceAdd x v reducesTo_S16x64x4096_S64_d0_2 h_S_),
    TRef.unary main_call0.v0 main_call0.v1 (broadcastInDim S1x64x1 ![1] bcast_S64_S1x64x1_1),
    TRef.nullary main_call0.cst_0 (constant S_ .f32 0x47800000#32),
    TRef.unary main_call0.cst_0 main_call0.v2 (broadcastInDim S1x64x1 ![] bcast_S_S1x64x1),
    TRef.binary main_call0.v1 main_call0.v2 main_call0.v3 Host.divf,
    TRef.unary main_call0.v3 main_call0.v4 (broadcastInDim S16x64x4096 ![0, 1, 2] bcast_S1x64x1_S16x64x4096_0_1_2),
    TRef.binary (.of main_v21 : StableHlo.TRef sig ⟨S16x64x4096, .f32⟩) main_call0.v4 main_call0.v5 subf,
    TRef.binary main_call0.v5 main_call0.v5 main_call0.v6 mulf,
    TRef.unary (.of main_c_2 : StableHlo.TRef sig ⟨S_, .i32⟩) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x64x4096_S64_d0_2 h_S_),
    TRef.unary main_call0.v9 main_call0.v10 (broadcastInDim S1x64x1 ![1] bcast_S64_S1x64x1_1),
    TRef.unary main_call0.v8 main_call0.v11 (broadcastInDim S1x64x1 ![] bcast_S_S1x64x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x64x1 ![] bcast_S_S1x64x1),
    TRef.ternary main_call0.v13 main_call0.v12 main_call0.call0.v1 main_call0.call0.v2 (fun p a b => select (broadcastInDim S1x64x1 ![] bcast_S_S1x64x1 p) a b),
    unary main_v25 main_v27 (broadcastInDim S16x64x4096 ![0, 1, 2] bcast_S1x64x1_S16x64x4096_0_1_2 : (⟨S1x64x1, .f32⟩ : BufTy).Contents (Elt F) → (⟨S16x64x4096, .f32⟩ : BufTy).Contents (Elt F)),
    binary main_v21 main_v27 main_v28 (subf : (⟨S16x64x4096, .f32⟩ : BufTy).Contents (Elt F) → (⟨S16x64x4096, .f32⟩ : BufTy).Contents (Elt F) → (⟨S16x64x4096, .f32⟩ : BufTy).Contents (Elt F)),
    nullary main_cst_3 (constant S_ .f32 0x3727C5AC#32),
    unary main_cst_3 main_v29 (broadcastInDim S1x64x1 ![] bcast_S_S1x64x1 : (⟨S_, .f32⟩ : BufTy).Contents (Elt F) → (⟨S1x64x1, .f32⟩ : BufTy).Contents (Elt F)),
    binary main_v26 main_v29 main_v30 (addf : (⟨S1x64x1, .f32⟩ : BufTy).Contents (Elt F) → (⟨S1x64x1, .f32⟩ : BufTy).Contents (Elt F) → (⟨S1x64x1, .f32⟩ : BufTy).Contents (Elt F)),
    unary main_v30 main_v31 (Host.rsqrt : (⟨S1x64x1, .f32⟩ : BufTy).Contents (Elt F) → (⟨S1x64x1, .f32⟩ : BufTy).Contents (Elt F)),
    unary main_v31 main_v32 (broadcastInDim S16x64x4096 ![0, 1, 2] bcast_S1x64x1_S16x64x4096_0_1_2 : (⟨S1x64x1, .f32⟩ : BufTy).Contents (Elt F) → (⟨S16x64x4096, .f32⟩ : BufTy).Contents (Elt F)),
    binary main_v28 main_v32 main_v33 (mulf : (⟨S16x64x4096, .f32⟩ : BufTy).Contents (Elt F) → (⟨S16x64x4096, .f32⟩ : BufTy).Contents (Elt F) → (⟨S16x64x4096, .f32⟩ : BufTy).Contents (Elt F)),
    unary main_arg4 main_v34 (broadcastInDim S1x64x1 ![1] bcast_S64_S1x64x1_1 : (⟨S64, .f32⟩ : BufTy).Contents (Elt F) → (⟨S1x64x1, .f32⟩ : BufTy).Contents (Elt F)),
    unary main_v34 main_v35 (broadcastInDim S16x64x4096 ![0, 1, 2] bcast_S1x64x1_S16x64x4096_0_1_2 : (⟨S1x64x1, .f32⟩ : BufTy).Contents (Elt F) → (⟨S16x64x4096, .f32⟩ : BufTy).Contents (Elt F)),
    binary main_v33 main_v35 main_v36 (mulf : (⟨S16x64x4096, .f32⟩ : BufTy).Contents (Elt F) → (⟨S16x64x4096, .f32⟩ : BufTy).Contents (Elt F) → (⟨S16x64x4096, .f32⟩ : BufTy).Contents (Elt F)),
    unary main_arg5 main_v37 (broadcastInDim S1x64x1 ![1] bcast_S64_S1x64x1_1 : (⟨S64, .f32⟩ : BufTy).Contents (Elt F) → (⟨S1x64x1, .f32⟩ : BufTy).Contents (Elt F)),
    unary main_v37 main_v38 (broadcastInDim S16x64x4096 ![0, 1, 2] bcast_S1x64x1_S16x64x4096_0_1_2 : (⟨S1x64x1, .f32⟩ : BufTy).Contents (Elt F) → (⟨S16x64x4096, .f32⟩ : BufTy).Contents (Elt F)),
    binary main_v36 main_v38 main_v39 (addf : (⟨S16x64x4096, .f32⟩ : BufTy).Contents (Elt F) → (⟨S16x64x4096, .f32⟩ : BufTy).Contents (Elt F) → (⟨S16x64x4096, .f32⟩ : BufTy).Contents (Elt F)) ]

/-- The main function is that straight line: the two called functions unfolded at their calls and sequencing
    reassociated, both sides are one chain of the same steps; the comparison is by unfolding definitions only. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., binary_bufs_sub .., reshape_bufs_sub .., unary_bufs_sub .., binary_bufs_sub .., unary_bufs_sub .., unary_bufs_sub .., binary_bufs_sub .., reshape_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

attribute [local irreducible] Host.reduceAdd Host.gather Host.rsqrt Host.divf in
set_option maxRecDepth 8192 in
set_option maxHeartbeats 1000000 in
/-- The fold of the 68 operations, read at the result buffer: the operations up to the bias are the array before
    normalisation, the rest are the normalisation; both are definitions whose bodies are these operations in order. -/
theorem out_eq (V : Valuation τ sig (Elt Ideal)) :
    after ops V (main_v39 : DevRef τ sig)
      = Cert.PaiConv.tail
          (refPre (V (main_arg0 : DevRef τ sig)) (V (main_arg1 : DevRef τ sig)) (V (main_arg2 : DevRef τ sig))
            (V (main_arg3 : DevRef τ sig)) (V (main_arg6 : DevRef τ sig)))
          (V (main_arg4 : DevRef τ sig)) (V (main_arg5 : DevRef τ sig)) := by
  after_results_simp
  rfl

/-- No operation writes an argument's buffer: the fold read there is the launch contents. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp
theorem arg5_eq (V : Valuation τ sig (Elt F)) :
    after ops V (main_arg5 : DevRef τ sig) = V (main_arg5 : DevRef τ sig) := by
  after_results_simp
theorem arg6_eq (V : Valuation τ sig (Elt F)) :
    after ops V (main_arg6 : DevRef τ sig) = V (main_arg6 : DevRef τ sig) := by
  after_results_simp

/-- Every weakly fair execution of the reference ends with its result at the normalisation of refPre of the arguments, and
    the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
          = Cert.PaiConv.tail
              (refPre (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg6)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.Hand

end
-- ==== Proof.RefValue.lean ====
/-
  The reference's array before normalisation is the specification's, index by index.
-/
import proofs.«124069_j10050223472786_1_alg».proof.Proof.RefRun
import proofs.«124069_j10050223472786_1_alg».proof.Proof.Spec
import proofs.«124069_j10050223472786_1_alg».proof.Proof.LibGatherStack
import Idealize.ShloMosaic.PureOps.Ideal.Laws
import Idealize.ShloMosaic.Lib.ValueIdx
import Idealize.ShloMosaic.Lib.Pipeline.Value
import Idealize.ShloMosaic.Lib.StackMember

noncomputable section

open scoped BigOperators
open Idealize.ShloMosaic Idealize.ShloMosaic.ValueIdx

namespace Cert.ReferenceIdeal.Hand

open Cert.ReferenceIdeal

/-- The bias, put on a unit row axis and then repeated down the rows, read at (p, o), is the bias at o. -/
private theorem bias_apply (h1 : S64.BroadcastsInDim S1x64 (![1] : Fin 1 → Fin S1x64.rank))
    (h2 : S1x64.BroadcastsInDim S65536x64 (![0, 1] : Fin 2 → Fin S65536x64.rank))
    (b : FVec Ideal S64 .f32) (p : Fin 65536) (o : Fin 64) :
    broadcastInDim S65536x64 ![0, 1] h2 (broadcastInDim S1x64 ![1] h1 b) (ix2 p o) = b (ix1 o) := by
  refine (broadcastInDim_apply _ h2 _ (ix2 p o) (ix2 (0 : Fin 1) o) (fun a => match a with
    | ⟨0, _⟩ => rfl
    | ⟨1, _⟩ => rfl)).trans ?_
  exact broadcastInDim_apply _ h1 b (ix2 (0 : Fin 1) o) (ix1 o) (fun a => match a with
    | ⟨0, _⟩ => rfl)

/-- The weight matrix transposed, read at (j, o), is the weight at (o, j). -/
private theorem wT_apply (h : S64x1280.Transposes [1, 0] S1280x64) (w : FVec Ideal S64x1280 .f32) (j : Fin 1280)
    (o : Fin 64) : transpose S1280x64 [1, 0] w h (ix2 j o) = w (ix2 o j) :=
  transpose_apply _ w h _ _ fun c => match c with | ⟨0, _⟩ => rfl | ⟨1, _⟩ => rfl

/-- A row's 64 x 20 block read as one vector of 1280 entries: entry j is channel j / 20, slot j mod 20. -/
private theorem flat_apply {α : Type} (h : S65536x64x20.ShapeCasts S65536x1280) (X : S65536x64x20.Idx → α)
    (p : Fin 65536) (j : Fin 1280) :
    shapeCast S65536x1280 X h (ix2 p j) = X (ix3 p (Cert.PaiConv.chanOf j) (Cert.PaiConv.slotOf j)) :=
  shapeCast_apply X h _ _ (by
    rw [Shape.rowMajor_val_three, Shape.rowMajor_val_two]
    show (p.val * 64 + j.val / 20) * 20 + j.val % 20 = p.val * 1280 + j.val
    omega)

/-- The channel regrouping done on the gathered rows: the 64 channels are split as 4 x 16, the two factors swapped, and
    merged again, so new channel c = q * 4 + r (q below 16, r below 4) reads old channel r * 16 + q; the two outer
    transposes put the channel axis before the slot axis. -/
private theorem regroup_apply {α : Type}
    (h1 : S65536x20x64.Transposes [0, 2, 1] S65536x64x20) (h2 : S65536x64x20.ShapeCasts S65536x4x16x20)
    (h3 : S65536x4x16x20.Transposes [0, 2, 1, 3] S65536x16x4x20) (h4 : S65536x16x4x20.ShapeCasts S65536x64x20)
    (g : S65536x20x64.Idx → α) (p : Fin 65536) (c : Fin 64) (k : Fin 20) :
    shapeCast S65536x64x20
        (transpose S65536x16x4x20 [0, 2, 1, 3] (shapeCast S65536x4x16x20 (transpose S65536x64x20 [0, 2, 1] g h1) h2) h3)
        h4 (ix3 p c k)
      = g (ix3 p k (Cert.PaiConv.oldChannel c)) := by
  have hc := c.isLt
  refine (shapeCast_apply _ h4 (ix3 p c k)
    (ix4 p (⟨c.val / 4, by omega⟩ : Fin 16) (⟨c.val % 4, by omega⟩ : Fin 4) k) (by
      rw [Shape.rowMajor_val_four, Shape.rowMajor_val_three]
      show ((p.val * 16 + c.val / 4) * 4 + c.val % 4) * 20 + k.val = (p.val * 64 + c.val) * 20 + k.val
      omega)).trans ?_
  refine (transpose_apply _ _ h3 _ (ix4 p (⟨c.val % 4, by omega⟩ : Fin 4) (⟨c.val / 4, by omega⟩ : Fin 16) k)
    (fun b => match b with | ⟨0, _⟩ => rfl | ⟨1, _⟩ => rfl | ⟨2, _⟩ => rfl | ⟨3, _⟩ => rfl)).trans ?_
  refine (shapeCast_apply _ h2 _ (ix3 p (Cert.PaiConv.oldChannel c) k) (by
      rw [Shape.rowMajor_val_four, Shape.rowMajor_val_three]
      show (p.val * 64 + (c.val % 4 * 16 + c.val / 4)) * 20 + k.val
        = ((p.val * 4 + c.val % 4) * 16 + c.val / 4) * 20 + k.val
      omega)).trans ?_
  exact transpose_apply _ g h1 _ (ix3 p k (Cert.PaiConv.oldChannel c))
    (fun b => match b with | ⟨0, _⟩ => rfl | ⟨1, _⟩ => rfl | ⟨2, _⟩ => rfl)

/-- The neighbour gather read at (p, k, c): the table at the row the start index of (p, k) names, at channel c. -/
private theorem gather_apply (T : FVec Ideal S65536x64 .f32) (I : IVec S65536x20x1 32) (p : Fin 65536) (k : Fin 20)
    (c : Fin 64) :
    Host.gather gather_S65536x64_S65536x20x1_S65536x20x64_2_0_n_n_0_2_164 T I (ix3 p k c)
      = T (ix2 (Cert.PaiConv.rowOf (I (ix3 p k (0 : Fin 1)))) c) :=
  Cert.LibGatherStack.gather_rows_stack _ rfl rfl rfl rfl rfl rfl rfl T I p k c (by omega)

/-- Entry (p, o) of the reference's array: the gathered rows, regrouped in their channels after the gather, mixed by the
    row's matrix, flattened and sent through the linear layer — the specification's sum. -/
theorem refPre_eq (x : FVec Ideal S16x64x4096 .f32) (pm : FVec Ideal S65536x20x20 .f32) (w : FVec Ideal S64x1280 .f32)
    (b : FVec Ideal S64 .f32) (a : IVec S65536x20 32) :
    refPre x pm w b a = Cert.PaiConv.pre (Cert.PaiConv.rowTable x) (Cert.PaiConv.nbrTable a) pm w b := by
  funext i
  obtain ⟨p, o, rfl⟩ : ∃ (p : Fin 65536) (o : Fin 64), i = ix2 p o := ⟨i 0, i 1, eq_ix2 i⟩
  rw [Cert.PaiConv.pre_ix2]
  unfold Cert.PaiConv.preAt
  refine (addf_apply _ _ _).trans ?_
  refine congrArg₂ (· + ·) ?_ (bias_apply _ _ b p o)
  refine (StackMember.dotGeneral_plain_apply none _ _ p o).trans ?_
  refine Finset.sum_congr rfl fun j _ => ?_
  refine congrArg₂ (· * ·) ?_ (wT_apply _ w j o)
  refine (flat_apply _ _ p j).trans ?_
  refine (StackMember.dotGeneral_stack_apply Gen.dot_S65536x64x20_S65536x20x20_S65536x64x20_2_1_1_2_0_0_wf none _ pm p
    (Cert.PaiConv.chanOf j) (Cert.PaiConv.slotOf j)).trans ?_
  refine Finset.sum_congr rfl fun k _ => ?_
  refine congrArg₂ (· * ·) ?_ rfl
  refine (regroup_apply _ _ _ _ _ p (Cert.PaiConv.chanOf j) k).trans ?_
  exact gather_apply _ _ p k (Cert.PaiConv.oldChannel (Cert.PaiConv.chanOf j))

end Cert.ReferenceIdeal.Hand

end
-- ==== Proof.lean ====
/-
  The kernel and its reference are one function over the extended reals.

  The feature [16, 64, 4096] is read as a table of 65536 rows of 64 channels. Each row gathers 20 neighbour rows, regroups
  the 64 channels (new channel c is old channel (c mod 4) * 16 + c / 4), mixes the 20 neighbours by the row's own 20 x 20
  matrix, reads the 64 x 20 mixes as 1280 numbers and sends them through a linear layer with a bias; the 65536 x 64 array
  is then normalised per channel over all rows, scaled and shifted.
  The kernel program regroups the channels of the TABLE before the gather, where the reference regroups the gathered rows
  after it: the regrouping moves channels only and the gather moves rows only, so the two orders agree entry by entry.
  The kernel's region computes the mixing and the linear layer block by block (64 blocks of 1024 rows), the reference as two
  whole products: at the extended reals both are the same double sum, nested the same way, so no law beyond reading each
  product at an index is used. The normalisation is the same sequence of operations in both programs and is carried as one
  function.
  The frames of the two kernel programs are the generated ones; the reference's frame is its run with the result dropped;
  the idealisation rewrote nothing, so there is nothing to preserve.
-/
import proofs.«124069_j10050223472786_1_alg».proof.Defs
import proofs.«124069_j10050223472786_1_alg».proof.Proof.Gen.Kernel
import proofs.«124069_j10050223472786_1_alg».proof.Proof.Gen.Kernel.Frame
import proofs.«124069_j10050223472786_1_alg».proof.Proof.Gen.KernelIdeal
import proofs.«124069_j10050223472786_1_alg».proof.Proof.Gen.KernelIdeal.Frame
import proofs.«124069_j10050223472786_1_alg».proof.Proof.Gen.ReferenceIdeal
import proofs.«124069_j10050223472786_1_alg».proof.Proof.Gen.Pre_finite_inputs
import proofs.«124069_j10050223472786_1_alg».proof.Proof.Spec
import proofs.«124069_j10050223472786_1_alg».proof.Proof.KernelRun
import proofs.«124069_j10050223472786_1_alg».proof.Proof.RefRun
import proofs.«124069_j10050223472786_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- Both programs end at the specification's result of the arguments: the kernel program by its run, the reference by its
    run and the entry-by-entry reading of its array before normalisation. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [Cert.ReferenceIdeal.Hand.refPre_eq, (hagree c).1, (hagree c).2.1, (hagree c).2.2.1, (hagree c).2.2.2.1,
    (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
